-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x100x100 : Shape := ⟨4, ![2, 64, 100, 100]⟩
abbrev S17x17 : Shape := ⟨2, ![17, 17]⟩
abbrev S_ : Shape := ⟨0, ![]⟩

class Facts : Prop where
  bcast_S_S2x64x100x100 : S_.BroadcastsInDim S2x64x100x100 (![] : Fin 0 → Fin S2x64x100x100.rank)
  reducesTo_S2x64x100x100_S_d0_1_2_3 : S2x64x100x100.ReducesTo [0, 1, 2, 3] S_
  h_S_ : 0 < S_.numel
  bcast_S_S17x17 : S_.BroadcastsInDim S17x17 (![] : Fin 0 → Fin S17x17.rank)
  reducesTo_S17x17_S_d0_1 : S17x17.ReducesTo [0, 1] S_

variable [Facts]

def fn {F : FTy → Type} [FloatOps F] (main_arg0 : FVec F S2x64x100x100 .f32) (main_arg1 : FVec F S17x17 .f32) : IVec S_ 1 :=
  let main_v0 : FVec F S2x64x100x100 .f32 := Host.absf main_arg0
  let main_cst : FVec F S_ .f32 := constant S_ .f32 0x7F800000#32
  let main_v1 : FVec F S2x64x100x100 .f32 := broadcastInDim S2x64x100x100 ![] bcast_S_S2x64x100x100 main_cst
  let main_v2 : IVec S2x64x100x100 1 := cmpf .olt main_v0 main_v1
  let main_c : IVec S_ 1 := constantI S_ 1 1#1
  let main_v3 : IVec S_ 1 := (fun x v => Host.reduce IntOp.andi x v reducesTo_S2x64x100x100_S_d0_1_2_3 h_S_) main_v2 main_c
  let main_v4 : FVec F S17x17 .f32 := Host.absf main_arg1
  let main_cst_0 : FVec F S_ .f32 := constant S_ .f32 0x7F800000#32
  let main_v5 : FVec F S17x17 .f32 := broadcastInDim S17x17 ![] bcast_S_S17x17 main_cst_0
  let main_v6 : IVec S17x17 1 := cmpf .olt main_v4 main_v5
  let main_c_1 : IVec S_ 1 := constantI S_ 1 1#1
  let main_v7 : IVec S_ 1 := (fun x v => Host.reduce IntOp.andi x v reducesTo_S17x17_S_d0_1 h_S_) main_v6 main_c_1
  let main_v8 : IVec S_ 1 := andi main_v3 main_v7
  main_v8
-- ==== Kernel.lean ====
abbrev S2x64x100x100 : Shape := ⟨4, ![2, 64, 100, 100]⟩
abbrev S17x17 : Shape := ⟨2, ![17, 17]⟩
abbrev S100 : Shape := ⟨1, ![100]⟩
abbrev S100x1x1 : Shape := ⟨3, ![100, 1, 1]⟩
abbrev S1x1x100 : Shape := ⟨3, ![1, 1, 100]⟩
abbrev S17 : Shape := ⟨1, ![17]⟩
abbrev S1x17x1 : Shape := ⟨3, ![1, 17, 1]⟩
abbrev S100x1x100 : Shape := ⟨3, ![100, 1, 100]⟩
abbrev S_ : Shape := ⟨0, ![]⟩
abbrev S100x17x100 : Shape := ⟨3, ![100, 17, 100]⟩
abbrev S100x17x100x1 : Shape := ⟨4, ![100, 17, 100, 1]⟩
abbrev S100x17x100x2 : Shape := ⟨4, ![100, 17, 100, 2]⟩
abbrev S100x100x10000 : Shape := ⟨3, ![100, 100, 10000]⟩
abbrev S1x100x10000 : Shape := ⟨3, ![1, 100, 10000]⟩
abbrev S100x17 : Shape := ⟨2, ![100, 17]⟩
abbrev S1x100x17 : Shape := ⟨3, ![1, 100, 17]⟩
abbrev S100x100x17 : Shape := ⟨3, ![100, 100, 17]⟩
abbrev S100x100x100 : Shape := ⟨3, ![100, 100, 100]⟩
abbrev S100x100x100x100 : Shape := ⟨4, ![100, 100, 100, 100]⟩
abbrev S1x1x100x100x100x100 : Shape := ⟨6, ![1, 1, 100, 100, 100, 100]⟩

abbrev nBuf : Space → Nat
  | .hbm => 56
  | .vmem => 3
  | .smem => 0
  | _ => 0

abbrev bufTy : (tb : Table) → Fin (tcTables nBuf tb) → BufTy
  | .hbm, ⟨0, _⟩ => ⟨S2x64x100x100, .f32⟩
  | .hbm, ⟨1, _⟩ => ⟨S17x17, .f32⟩
  | .hbm, ⟨2, _⟩ => ⟨S100, .i32⟩
  | .hbm, ⟨3, _⟩ => ⟨S100x1x1, .i32⟩
  | .hbm, ⟨4, _⟩ => ⟨S100, .i32⟩
  | .hbm, ⟨5, _⟩ => ⟨S1x1x100, .i32⟩
  | .hbm, ⟨6, _⟩ => ⟨S17, .i32⟩
  | .hbm, ⟨7, _⟩ => ⟨S1x17x1, .i32⟩
  | .hbm, ⟨8, _⟩ => ⟨S100x1x100, .i32⟩
  | .hbm, ⟨9, _⟩ => ⟨S100x1x100, .i32⟩
  | .hbm, ⟨10, _⟩ => ⟨S100x1x100, .i32⟩
  | .hbm, ⟨11, _⟩ => ⟨S_, .i32⟩
  | .hbm, ⟨12, _⟩ => ⟨S100x1x100, .i32⟩
  | .hbm, ⟨13, _⟩ => ⟨S100x1x100, .i32⟩
  | .hbm, ⟨14, _⟩ => ⟨S_, .i32⟩
  | .hbm, ⟨15, _⟩ => ⟨S100x1x100, .i32⟩
  | .hbm, ⟨16, _⟩ => ⟨S100x1x100, .i1⟩
  | .hbm, ⟨17, _⟩ => ⟨S_, .i32⟩
  | .hbm, ⟨18, _⟩ => ⟨S100x1x100, .i32⟩
  | .hbm, ⟨19, _⟩ => ⟨S100x1x100, .i1⟩
  | .hbm, ⟨20, _⟩ => ⟨S100x1x100, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S100x1x100, .i32⟩
  | .hbm, ⟨25, _⟩ => ⟨S100x1x100, .i32⟩
  | .hbm, ⟨26, _⟩ => ⟨S_, .i32⟩
  | .hbm, ⟨27, _⟩ => ⟨S100x1x100, .i32⟩
  | .hbm, ⟨28, _⟩ => ⟨S100x1x100, .i32⟩
  | .hbm, ⟨29, _⟩ => ⟨S100x17x100, .i32⟩
  | .hbm, ⟨30, _⟩ => ⟨S100x17x100, .i32⟩
  | .hbm, ⟨31, _⟩ => ⟨S100x17x100, .i1⟩
  | .hbm, ⟨32, _⟩ => ⟨S_, .i32⟩
  | .hbm, ⟨33, _⟩ => ⟨S100x17x100, .i32⟩
  | .hbm, ⟨34, _⟩ => ⟨S100x17x100, .i1⟩
  | .hbm, ⟨35, _⟩ => ⟨S_, .i32⟩
  | .hbm, ⟨36, _⟩ => ⟨S100x17x100, .i32⟩
  | .hbm, ⟨37, _⟩ => ⟨S100x17x100, .i32⟩
  | .hbm, ⟨38, _⟩ => ⟨S100x17x100, .i32⟩
  | .hbm, ⟨39, _⟩ => ⟨S_, .i32⟩
  | .hbm, ⟨40, _⟩ => ⟨S100x17x100, .i32⟩
  | .hbm, ⟨41, _⟩ => ⟨S100x17x100, .i1⟩
  | .hbm, ⟨42, _⟩ => ⟨S_, .i32⟩
  | .hbm, ⟨43, _⟩ => ⟨S100x17x100, .i32⟩
  | .hbm, ⟨44, _⟩ => ⟨S100x17x100, .i32⟩
  | .hbm, ⟨45, _⟩ => ⟨S100x17x100, .i32⟩
  | .hbm, ⟨46, _⟩ => ⟨S100x17x100x1, .i32⟩
  | .hbm, ⟨47, _⟩ => ⟨S100x17x100x1, .i32⟩
  | .hbm, ⟨48, _⟩ => ⟨S100x17x100x2, .i32⟩
  | .hbm, ⟨49, _⟩ => ⟨S100x17x100, .f32⟩
  | .hbm, ⟨50, _⟩ => ⟨S_, .f32⟩
  | .hbm, ⟨51, _⟩ => ⟨S100x17x100, .f32⟩
  | .hbm, ⟨52, _⟩ => ⟨S100x17x100, .f32⟩
  | .hbm, ⟨53, _⟩ => ⟨S100x100x10000, .f32⟩
  | .hbm, ⟨54, _⟩ => ⟨S100x100x100x100, .f32⟩
  | .hbm, ⟨55, _⟩ => ⟨S1x1x100x100x100x100, .f32⟩
  | .local _ .vmem, ⟨0, _⟩ => ⟨S100x17x100, .f32⟩
  | .local _ .vmem, ⟨1, _⟩ => ⟨S1x100x10000, .f32⟩
  | .local _ .vmem, ⟨2, _⟩ => ⟨S1x100x10000, .f32⟩
  | _, _ => ⟨S2x64x100x100, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S100x17x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x100x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S100_S100x1x1_0 : S100.BroadcastsInDim S100x1x1 (![0] : Fin 1 → Fin S100x1x1.rank)
  bcast_S100_S1x1x100_2 : S100.BroadcastsInDim S1x1x100 (![2] : Fin 1 → Fin S1x1x100.rank)
  bcast_S17_S1x17x1_1 : S17.BroadcastsInDim S1x17x1 (![1] : Fin 1 → Fin S1x17x1.rank)
  bcast_S1x1x100_S100x1x100_0_1_2 : S1x1x100.BroadcastsInDim S100x1x100 (![0, 1, 2] : Fin 3 → Fin S100x1x100.rank)
  bcast_S100x1x1_S100x1x100_0_1_2 : S100x1x1.BroadcastsInDim S100x1x100 (![0, 1, 2] : Fin 3 → Fin S100x1x100.rank)
  bcast_S_S100x1x100 : S_.BroadcastsInDim S100x1x100 (![] : Fin 0 → Fin S100x1x100.rank)
  bcast_S1x17x1_S100x17x100_0_1_2 : S1x17x1.BroadcastsInDim S100x17x100 (![0, 1, 2] : Fin 3 → Fin S100x17x100.rank)
  bcast_S100x1x100_S100x17x100_0_1_2 : S100x1x100.BroadcastsInDim S100x17x100 (![0, 1, 2] : Fin 3 → Fin S100x17x100.rank)
  bcast_S_S100x17x100 : S_.BroadcastsInDim S100x17x100 (![] : Fin 0 → Fin S100x17x100.rank)
  bcast_S100x17x100_S100x17x100x1_0_1_2 : S100x17x100.BroadcastsInDim S100x17x100x1 (![0, 1, 2] : Fin 3 → Fin S100x17x100x1.rank)
  concatenates_S100x17x100x1_S100x17x100x1_S100x17x100x2_d3 : Shape.Concatenates [S100x17x100x1, S100x17x100x1] S100x17x100x2 3
  iota_S100x17_d0_w32 : S100x17.Iotas .tc 32 [0]
  iota_S100x17_d1_w32 : S100x17.Iotas .tc 32 [1]
  natLt_1_32 : 1 < 32
  shapeCasts_S100x17_S1x100x17 : S100x17.ShapeCasts S1x100x17
  shapeCasts_S1x100x17_S1x100x17 : S1x100x17.ShapeCasts S1x100x17
  broadcasts_S1x100x17_S100x100x17 : S1x100x17.Broadcasts S100x100x17
  inb_S100x17x100_S100x17x100_0_0_0 : ∀ a, (![0, 0, 0] : Fin 3 → Nat) a + S100x17x100.size a ≤ S100x17x100.size a
  h_S100x17x100 : 0 < S100x17x100.numel
  shapeCasts_S100x17x100_S100x17x100 : S100x17x100.ShapeCasts S100x17x100
  shapeCasts_S100x100x100_S1x100x10000 : S100x100x100.ShapeCasts S1x100x10000
  inb_S1x100x10000_S1x100x10000_0_0_0 : ∀ a, (![0, 0, 0] : Fin 3 → Nat) a + S1x100x10000.size a ≤ S1x100x10000.size a
  h_S1x100x10000 : 0 < S1x100x10000.numel
  shapeCasts_S100x100x10000_S100x100x100x100 : S100x100x10000.ShapeCasts S100x100x100x100
  shapeCasts_S100x100x100x100_S1x1x100x100x100x100 : S100x100x100x100.ShapeCasts S1x1x100x100x100x100
  gather_S17x17_S100x17x100x2_S100x17x100_n_01_n_n_01_3_11_wf : GatherDims.WF S17x17 S100x17x100x2 S100x17x100 [] [0, 1] [] [0, 1] [] 3 ![1, 1]
  dot_S100x100x17_S100x17x100_S100x100x100_2_1_1_2_0_0_wf : DotDims.WF S100x100x17 S100x17x100 S100x100x100 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x17x100.size a ≤ S100x17x100.size a
  hwx0_0 : ∀ i : grid0.Coords, EltTy.bits .f32 = 32 ∨ (Rect.block (s := S100x17x100) S100x17x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x10000.size a ≤ S100x100x10000.size a
  hwx0_1 : ∀ i : grid0.Coords, EltTy.bits .f32 = 32 ∨ (Rect.block (s := S100x100x10000) S1x100x10000.size (cc0_transform_1 i) (hinb0_1 i)).WholeWords (EltTy.packing .f32)

variable [Facts₀]

def gather_S17x17_S100x17x100x2_S100x17x100_n_01_n_n_01_3_11 : GatherDims S17x17 S100x17x100x2 S100x17x100 where
  offsetDims := []
  collapsedSliceDims := [0, 1]
  operandBatchingDims := []
  startIndicesBatchingDims := []
  startIndexMap := [0, 1]
  indexVectorDim := 3
  sliceSizes := ![1, 1]
  wf := gather_S17x17_S100x17x100x2_S100x17x100_n_01_n_n_01_3_11_wf
def dot_S100x100x17_S100x17x100_S100x100x100_2_1_1_2_0_0 : DotDims S100x100x17 S100x17x100 S100x100x100 where
  lhsContracting := [2]
  rhsContracting := [1]
  lhsNonContracting := [1]
  rhsNonContracting := [2]
  lhsBatch := [0]
  rhsBatch := [0]
  wf := dot_S100x100x17_S100x17x100_S100x100x100_2_1_1_2_0_0_wf

abbrev win0_0 : Pipeline.Window sig grid0 :=
  Pipeline.Window.ofSpec (Memref.whole main_v34) S100x17x100.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x100x10000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x64x100x100 : Shape := ⟨4, ![2, 64, 100, 100]⟩
abbrev S17x17 : Shape := ⟨2, ![17, 17]⟩
abbrev S100 : Shape := ⟨1, ![100]⟩
abbrev S1x100 : Shape := ⟨2, ![1, 100]⟩
abbrev S100x1 : Shape := ⟨2, ![100, 1]⟩
abbrev S100x100 : Shape := ⟨2, ![100, 100]⟩
abbrev S_ : Shape := ⟨0, ![]⟩
abbrev S100x1x100x1 : Shape := ⟨4, ![100, 1, 100, 1]⟩
abbrev S1x100x1x100 : Shape := ⟨4, ![1, 100, 1, 100]⟩
abbrev S100x100x100x100 : Shape := ⟨4, ![100, 100, 100, 100]⟩
abbrev S100x100x100x100x1 : Shape := ⟨5, ![100, 100, 100, 100, 1]⟩
abbrev S100x100x100x100x2 : Shape := ⟨5, ![100, 100, 100, 100, 2]⟩
abbrev S1x1x100x100x100x100 : Shape := ⟨6, ![1, 1, 100, 100, 100, 100]⟩

abbrev nBuf : Space → Nat
  | .hbm => 81
  | .vmem => 0
  | .smem => 0
  | _ => 0

abbrev bufTy : (tb : Table) → Fin (tcTables nBuf tb) → BufTy
  | .hbm, ⟨0, _⟩ => ⟨S2x64x100x100, .f32⟩
  | .hbm, ⟨1, _⟩ => ⟨S17x17, .f32⟩
  | .hbm, ⟨2, _⟩ => ⟨S100, .i32⟩
  | .hbm, ⟨3, _⟩ => ⟨S100, .i32⟩
  | .hbm, ⟨4, _⟩ => ⟨S1x100, .i32⟩
  | .hbm, ⟨5, _⟩ => ⟨S100x1, .i32⟩
  | .hbm, ⟨6, _⟩ => ⟨S100x100, .i32⟩
  | .hbm, ⟨7, _⟩ => ⟨S100x100, .i32⟩
  | .hbm, ⟨8, _⟩ => ⟨S100x100, .i32⟩
  | .hbm, ⟨9, _⟩ => ⟨S_, .i32⟩
  | .hbm, ⟨10, _⟩ => ⟨S100x100, .i32⟩
  | .hbm, ⟨11, _⟩ => ⟨S100x100, .i32⟩
  | .hbm, ⟨12, _⟩ => ⟨S1x100, .i32⟩
  | .hbm, ⟨13, _⟩ => ⟨S100x1, .i32⟩
  | .hbm, ⟨14, _⟩ => ⟨S100x100, .i32⟩
  | .hbm, ⟨15, _⟩ => ⟨S100x100, .i32⟩
  | .hbm, ⟨16, _⟩ => ⟨S100x100, .i32⟩
  | .hbm, ⟨17, _⟩ => ⟨S_, .i32⟩
  | .hbm, ⟨18, _⟩ => ⟨S100x100, .i32⟩
  | .hbm, ⟨19, _⟩ => ⟨S100x100, .i32⟩
  | .hbm, ⟨20, _⟩ => ⟨S_, .i32⟩
  | .hbm, ⟨21, _⟩ => ⟨S100x100, .i32⟩
  | .hbm, ⟨22, _⟩ => ⟨S100x100, .i1⟩
  | .hbm, ⟨23, _⟩ => ⟨S_, .i32⟩
  | .hbm, ⟨24, _⟩ => ⟨S100x100, .i32⟩
  | .hbm, ⟨25, _⟩ => ⟨S100x100, .i1⟩
  | .hbm, ⟨26, _⟩ => ⟨S100x100, .i1⟩
  | .hbm, ⟨27, _⟩ => ⟨S_, .i32⟩
  | .hbm, ⟨28, _⟩ => ⟨S100x100, .i32⟩
  | .hbm, ⟨29, _⟩ => ⟨S100x100, .i1⟩
  | .hbm, ⟨30, _⟩ => ⟨S_, .i32⟩
  | .hbm, ⟨31, _⟩ => ⟨S100x100, .i32⟩
  | .hbm, ⟨32, _⟩ => ⟨S100x100, .i1⟩
  | .hbm, ⟨33, _⟩ => ⟨S100x100, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S100x100, .i32⟩
  | .hbm, ⟨38, _⟩ => ⟨S100x100, .i32⟩
  | .hbm, ⟨39, _⟩ => ⟨S_, .i32⟩
  | .hbm, ⟨40, _⟩ => ⟨S100x100, .i32⟩
  | .hbm, ⟨41, _⟩ => ⟨S100x100, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S100x100, .i32⟩
  | .hbm, ⟨46, _⟩ => ⟨S100x100, .i32⟩
  | .hbm, ⟨47, _⟩ => ⟨S_, .i32⟩
  | .hbm, ⟨48, _⟩ => ⟨S100x100, .i32⟩
  | .hbm, ⟨49, _⟩ => ⟨S100x100, .i32⟩
  | .hbm, ⟨50, _⟩ => ⟨S100x1x100x1, .i32⟩
  | .hbm, ⟨51, _⟩ => ⟨S1x100x1x100, .i32⟩
  | .hbm, ⟨52, _⟩ => ⟨S_, .i32⟩
  | .hbm, ⟨53, _⟩ => ⟨S100x1x100x1, .i32⟩
  | .hbm, ⟨54, _⟩ => ⟨S100x1x100x1, .i1⟩
  | .hbm, ⟨55, _⟩ => ⟨S_, .i32⟩
  | .hbm, ⟨56, _⟩ => ⟨S100x1x100x1, .i32⟩
  | .hbm, ⟨57, _⟩ => ⟨S100x1x100x1, .i32⟩
  | .hbm, ⟨58, _⟩ => ⟨S100x1x100x1, .i32⟩
  | .hbm, ⟨59, _⟩ => ⟨S_, .i32⟩
  | .hbm, ⟨60, _⟩ => ⟨S1x100x1x100, .i32⟩
  | .hbm, ⟨61, _⟩ => ⟨S1x100x1x100, .i1⟩
  | .hbm, ⟨62, _⟩ => ⟨S_, .i32⟩
  | .hbm, ⟨63, _⟩ => ⟨S1x100x1x100, .i32⟩
  | .hbm, ⟨64, _⟩ => ⟨S1x100x1x100, .i32⟩
  | .hbm, ⟨65, _⟩ => ⟨S1x100x1x100, .i32⟩
  | .hbm, ⟨66, _⟩ => ⟨S100x100x100x100, .i32⟩
  | .hbm, ⟨67, _⟩ => ⟨S100x100x100x100, .i32⟩
  | .hbm, ⟨68, _⟩ => ⟨S100x100x100x100x1, .i32⟩
  | .hbm, ⟨69, _⟩ => ⟨S100x100x100x100x1, .i32⟩
  | .hbm, ⟨70, _⟩ => ⟨S100x100x100x100x2, .i32⟩
  | .hbm, ⟨71, _⟩ => ⟨S100x100x100x100, .f32⟩
  | .hbm, ⟨72, _⟩ => ⟨S100x1x100x1, .i1⟩
  | .hbm, ⟨73, _⟩ => ⟨S1x100x1x100, .i1⟩
  | .hbm, ⟨74, _⟩ => ⟨S100x100x100x100, .i1⟩
  | .hbm, ⟨75, _⟩ => ⟨S100x100x100x100, .i1⟩
  | .hbm, ⟨76, _⟩ => ⟨S100x100x100x100, .i1⟩
  | .hbm, ⟨77, _⟩ => ⟨S_, .f32⟩
  | .hbm, ⟨78, _⟩ => ⟨S100x100x100x100, .f32⟩
  | .hbm, ⟨79, _⟩ => ⟨S100x100x100x100, .f32⟩
  | .hbm, ⟨80, _⟩ => ⟨S1x1x100x100x100x100, .f32⟩
  | _, _ => ⟨S2x64x100x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_c_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v26 : Ref sig .tc := ⟨.hbm, 41, rfl⟩
abbrev main_c_7 : Ref sig .tc := ⟨.hbm, 42, rfl⟩
abbrev main_c_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_9 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_c_12 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst : Ref sig .tc := ⟨.hbm, 77, rfl⟩
abbrev main_call2_v0 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S100_S100x1_0 : S100.BroadcastsInDim S100x1 (![0] : Fin 1 → Fin S100x1.rank)
  bcast_S1x100_S100x100_0_1 : S1x100.BroadcastsInDim S100x100 (![0, 1] : Fin 2 → Fin S100x100.rank)
  bcast_S100x1_S100x100_0_1 : S100x1.BroadcastsInDim S100x100 (![0, 1] : Fin 2 → Fin S100x100.rank)
  bcast_S_S100x100 : S_.BroadcastsInDim S100x100 (![] : Fin 0 → Fin S100x100.rank)
  bcast_S100x100_S100x1x100x1_0_2 : S100x100.BroadcastsInDim S100x1x100x1 (![0, 2] : Fin 2 → Fin S100x1x100x1.rank)
  bcast_S100x100_S1x100x1x100_1_3 : S100x100.BroadcastsInDim S1x100x1x100 (![1, 3] : Fin 2 → Fin S1x100x1x100.rank)
  bcast_S_S100x1x100x1 : S_.BroadcastsInDim S100x1x100x1 (![] : Fin 0 → Fin S100x1x100x1.rank)
  bcast_S_S1x100x1x100 : S_.BroadcastsInDim S1x100x1x100 (![] : Fin 0 → Fin S1x100x1x100.rank)
  bcast_S100x1x100x1_S100x100x100x100_0_1_2_3 : S100x1x100x1.BroadcastsInDim S100x100x100x100 (![0, 1, 2, 3] : Fin 4 → Fin S100x100x100x100.rank)
  bcast_S1x100x1x100_S100x100x100x100_0_1_2_3 : S1x100x1x100.BroadcastsInDim S100x100x100x100 (![0, 1, 2, 3] : Fin 4 → Fin S100x100x100x100.rank)
  bcast_S100x100x100x100_S100x100x100x100x1_0_1_2_3 : S100x100x100x100.BroadcastsInDim S100x100x100x100x1 (![0, 1, 2, 3] : Fin 4 → Fin S100x100x100x100x1.rank)
  concatenates_S100x100x100x100x1_S100x100x100x100x1_S100x100x100x100x2_d4 : Shape.Concatenates [S100x100x100x100x1, S100x100x100x100x1] S100x100x100x100x2 4
  bcast_S_S100x100x100x100 : S_.BroadcastsInDim S100x100x100x100 (![] : Fin 0 → Fin S100x100x100x100.rank)
  shapeCasts_S100x100x100x100_S1x1x100x100x100x100 : S100x100x100x100.ShapeCasts S1x1x100x100x100x100
  gather_S17x17_S100x100x100x100x2_S100x100x100x100_n_01_n_n_01_4_11_wf : GatherDims.WF S17x17 S100x100x100x100x2 S100x100x100x100 [] [0, 1] [] [0, 1] [] 4 ![1, 1]

variable [Facts₀]

def gather_S17x17_S100x100x100x100x2_S100x100x100x100_n_01_n_n_01_4_11 : GatherDims S17x17 S100x100x100x100x2 S100x100x100x100 where
  offsetDims := []
  collapsedSliceDims := [0, 1]
  operandBatchingDims := []
  startIndicesBatchingDims := []
  startIndexMap := [0, 1]
  indexVectorDim := 4
  sliceSizes := ![1, 1]
  wf := gather_S17x17_S100x100x100x100x2_S100x100x100x100_n_01_n_n_01_4_11_wf

class Facts : Prop extends Facts₀ where

variable [Facts]
-- ==== Proof.Words.lean ====
/-
  The integer side of the relative-position bias, on 32-bit words, and the one law that joins the two programs.

  Both programs index the 17 × 17 bias table by the relative offsets `r = c − a + 8` of two positions, computed on
  signed 32-bit words. An offset counts when `0 ≤ r ≤ 16` (`inband`); it is clipped into that range (`clip`), a
  negative index would count from the table's end (`wrap`), and the table read clamps it into `[0, 16]` (`pos`).
  On a word in the band all three leave the offset as it is.

  The kernel does not index the rows: it multiplies by the one-hot row `[r = k]`, `k < 17`, and sums over `k`.
  A one-hot sum picks the single term `k = r` when `r` is in the band and is empty otherwise (`onehot_sum`); it
  uses only `0 · x = 0`, `1 · x = x` and `x + 0 = x`, which hold on all extended reals.
-/
import Idealize.ShloMosaic.PureOps.Ideal
import Idealize.ShloMosaic.Lib.ValueIdx
import Idealize.ShloMosaic.Lib.StableHlo.Predicate

noncomputable section

namespace Cert.PosBias

open Idealize.ShloMosaic Idealize.ShloMosaic.ValueIdx

/-- The relative offset of position `c` from position `a`, shifted by the radius 8, on signed words. -/
def rel (a c : Nat) : BitVec 32 := IntOp.addi (IntOp.subi (BitVec.ofNat 32 c) (BitVec.ofNat 32 a)) 8#32

/-- The offset clipped into `[0, 16]`: `min 16 (max 0 r)`, signed. -/
def clip (r : BitVec 32) : BitVec 32 := IntOp.minsi 16#32 (IntOp.maxsi 0#32 r)

/-- A negative index counts from the end of an axis of extent 17. -/
def wrap (x : BitVec 32) : BitVec 32 := Scalar.select (IntOp.cmpi .slt x 0#32) (IntOp.addi x 17#32) x

/-- The table read's own clamp of a start index into `[0, 16]`. -/
def pos (x : BitVec 32) : Fin 17 := ⟨min x.toInt.toNat 16, by omega⟩

/-- The mask bit `0 ≤ r ∧ r ≤ 16`, signed. -/
def inband (r : BitVec 32) : BitVec 1 := IntOp.andi (IntOp.cmpi .sge r 0#32) (IntOp.cmpi .sle r 16#32)

/-- On the seventeen words `0 … 16`: the word is in the band, and clipping, wrapping and clamping leave it alone. -/
theorem small : ∀ k : Fin 17, inband (BitVec.ofNat 32 k.val) = 1#1 ∧ pos (wrap (clip (BitVec.ofNat 32 k.val))) = k
    ∧ pos (wrap (BitVec.ofNat 32 k.val)) = k := by decide

/-- Those seventeen words are pairwise distinct. -/
theorem ofNat_inj : ∀ k k' : Fin 17, BitVec.ofNat 32 k.val = BitVec.ofNat 32 k'.val → k = k' := by decide

/-- A word in the band is one of them. -/
theorem of_inband {r : BitVec 32} (h : inband r = 1#1) : ∃ k : Fin 17, r = BitVec.ofNat 32 k.val := by
  have e1 : IntOp.cmpi .sge r 0#32 = BitVec.ofBool ((0#32 : BitVec 32).sle r) := rfl
  have e2 : IntOp.cmpi .sle r 16#32 = BitVec.ofBool (r.sle 16#32) := rfl
  unfold inband IntOp.andi at h
  rw [e1, e2] at h
  have h1 : (0#32 : BitVec 32).sle r = true ∧ r.sle 16#32 = true := by
    generalize (0#32 : BitVec 32).sle r = p at h
    generalize r.sle 16#32 = q at h
    revert h; revert p q; decide
  obtain ⟨ha, hb⟩ := h1
  simp only [BitVec.sle, decide_eq_true_eq] at ha hb
  have h0 : (0#32 : BitVec 32).toInt = 0 := by decide
  have h16 : (16#32 : BitVec 32).toInt = 16 := by decide
  rw [h0] at ha; rw [h16] at hb
  have hlt := r.isLt
  have hc := BitVec.toInt_eq_toNat_cond r
  have hle : r.toNat ≤ 16 := by
    split at hc <;> omega
  refine ⟨⟨r.toNat, by omega⟩, BitVec.eq_of_toNat_eq ?_⟩
  show r.toNat = (BitVec.ofNat 32 r.toNat).toNat
  rw [BitVec.toNat_ofNat]
  omega

/-- THE ONE-HOT SUM. For a row `oh` that is `1` at the `k` with `r = k` and `0` elsewhere, the sum of `oh k · g k`
    over the seventeen rows is `g` at the offset's row when the offset is in the band, and `0` when it is not. -/
theorem onehot_sum (r : BitVec 32) (oh g : Fin 17 → EReal)
    (hoh : ∀ k : Fin 17, oh k = if r = BitVec.ofNat 32 k.val then 1 else 0) :
    ∑ k : Fin 17, oh k * g (pos (wrap (BitVec.ofNat 32 k.val))) = Scalar.select (inband r) (g (pos (wrap (clip r)))) 0 := by
  by_cases hr : inband r = 1#1
  · obtain ⟨k0, rfl⟩ := of_inband hr
    rw [Finset.sum_eq_single k0]
    · rw [hoh k0, if_pos rfl, one_mul, (small k0).2.1, (small k0).2.2, hr, select_one]
    · intro k _ hk
      rw [hoh k, if_neg (fun h => hk (ofNat_inj _ _ h).symm), zero_mul]
    · intro h; exact absurd (Finset.mem_univ _) h
  · have hne : ∀ k : Fin 17, r ≠ BitVec.ofNat 32 k.val := fun k h => hr (h ▸ (small k).1)
    rw [Finset.sum_eq_zero (fun k _ => by rw [hoh k, if_neg (hne k), zero_mul]), eq_zero_of_ne_one hr, select_zero]

/-- The two masks joined by `and` select as the two selects nested. -/
theorem select_and {α : Type} (a b : BitVec 1) (x z : α) :
    Scalar.select (IntOp.andi a b) x z = Scalar.select a (Scalar.select b x z) z := by
  rcases BitVec.eq_zero_or_eq_one a with rfl | rfl <;> rcases BitVec.eq_zero_or_eq_one b with rfl | rfl <;> rfl

/-- A one-bit word widened to 32 bits and read as a signed integer is `1` or `0`. -/
theorem toInt_setWidth_bit : ∀ x : BitVec 1, (x.setWidth 32).toInt = if x = 1#1 then 1 else 0 := by decide

/-- The kernel's one-hot entry for offset word `r` and row `k`: the bit `r = k`, widened to a word and converted to a
    float — at the ideal instance the integer `1` or `0` as an extended real. -/
def onehot (r : BitVec 32) (k : Fin 17) : EReal :=
  FloatOps.sitofp (F := Ideal) .f32 ((IntOp.cmpi .eq r (BitVec.ofNat 32 k.val)).setWidth 32)

theorem onehot_eq (r : BitVec 32) (k : Fin 17) : onehot r k = if r = BitVec.ofNat 32 k.val then 1 else 0 := by
  show (((((IntOp.cmpi .eq r (BitVec.ofNat 32 k.val)).setWidth 32).toInt : ℤ) : ℝ) : EReal) = _
  rw [toInt_setWidth_bit]
  by_cases h : r = BitVec.ofNat 32 k.val
  · rw [if_pos h, if_pos (StableHlo.Predicate.cmpi_eq_iff.2 h)]; simp
  · rw [if_neg h, if_neg (fun h' => h (StableHlo.Predicate.cmpi_eq_iff.1 h'))]; simp

/-! ## The specification -/

/-- THE RELATIVE-POSITION BIAS. At `(h1, w1, h2, w2)`: the bias table `b` at the clipped offsets of `h2` from `h1` and
    of `w2` from `w1` when both offsets are in the band, `0` otherwise. Both programs compute this function of `b`. -/
def G4 (b : (⟨2, ![17, 17]⟩ : Shape).Idx → EReal) : (⟨4, ![100, 100, 100, 100]⟩ : Shape).Idx → EReal := fun i =>
  Scalar.select (inband (rel (i 0).val (i 2).val))
    (Scalar.select (inband (rel (i 1).val (i 3).val))
      (b (ix2 (pos (wrap (clip (rel (i 0).val (i 2).val)))) (pos (wrap (clip (rel (i 1).val (i 3).val)))))) 0) 0

/-- The kernel's sum over the seventeen rows, of the one-hot row of the `h` offset against a table column that is
    already the `w` select, is the specification's nested select. -/
theorem sum_rows (b : (⟨2, ![17, 17]⟩ : Shape).Idx → EReal) (h1 w1 h2 w2 : Nat) (T : Fin 17 → EReal)
    (hT : ∀ k : Fin 17, T k = Scalar.select (inband (rel w1 w2))
      (b (ix2 (pos (wrap (BitVec.ofNat 32 k.val))) (pos (wrap (clip (rel w1 w2)))))) 0) :
    ∑ k : Fin 17, onehot (rel h1 h2) k * T k
      = Scalar.select (inband (rel h1 h2))
          (Scalar.select (inband (rel w1 w2))
            (b (ix2 (pos (wrap (clip (rel h1 h2)))) (pos (wrap (clip (rel w1 w2)))))) 0) 0 := by
  rw [Finset.sum_congr rfl (fun k _ => by rw [hT k])]
  exact onehot_sum (rel h1 h2) (onehot (rel h1 h2))
    (fun p => Scalar.select (inband (rel w1 w2)) (b (ix2 p (pos (wrap (clip (rel w1 w2)))))) 0) (onehot_eq _)

end Cert.PosBias

end
-- ==== Proof.Payload.lean ====
/-
  What the kernel body stores at one grid point, read at an index.

  At grid point `h1` the body builds the one-hot matrix `[h2 − h1 + 8 = k]` over `(h2, k)`, `100 × 17`, repeats it for
  every `w1`, multiplies it — one matrix product per `w1`, contracting `k` — with the resident table `x[w1, k, w2]`,
  and stores the `100 × 100 × 100` result re-laid as `1 × 100 × 10000`, rows `(h2, w2)` merged row-major. So the stored
  block at `(0, w1, h2 · 100 + w2)` is the sum over the seventeen rows `k` of the one-hot entry times `x[w1, k, w2]`.
-/
import proofs.«421970_j23845658427614_3_alg».proof.Proof.Gen.KernelIdeal.Skeleton
import proofs.«421970_j23845658427614_3_alg».proof.Proof.Words
import Idealize.ShloMosaic.Lib.ValueIdx
import Idealize.ShloMosaic.Lib.Pipeline.Value
import Idealize.ShloMosaic.PureOps.Ideal.Laws

noncomputable section

namespace Cert.PosBias.Kernel

open Idealize.ShloMosaic Idealize.ShloMosaic.ValueIdx Cert.KernelIdeal Cert.KernelIdeal.Gen Cert.PosBias

/-! ## The batched product's operand indices, axis by axis

The left operand is `[w1, h2, k]`, the right `[w1, k, w2]`, the result `[w1, h2, w2]`: `w1` is the batch axis of both,
`k` the one contracted axis. -/

theorem lhs_0 (j : S100x100x100.Idx) (k : dot_S100x100x17_S100x17x100_S100x100x100_2_1_1_2_0_0.contr.Idx) : (dot_S100x100x17_S100x17x100_S100x100x100_2_1_1_2_0_0.lhsIdx j k 0 : ℕ) = j 0 := by
  simp [DotDims.lhsIdx, dot_S100x100x17_S100x17x100_S100x100x100_2_1_1_2_0_0]; rfl
theorem lhs_1 (j : S100x100x100.Idx) (k : dot_S100x100x17_S100x17x100_S100x100x100_2_1_1_2_0_0.contr.Idx) : (dot_S100x100x17_S100x17x100_S100x100x100_2_1_1_2_0_0.lhsIdx j k 1 : ℕ) = j 1 := by
  simp [DotDims.lhsIdx, dot_S100x100x17_S100x17x100_S100x100x100_2_1_1_2_0_0]; rfl
theorem lhs_2 (j : S100x100x100.Idx) (k : dot_S100x100x17_S100x17x100_S100x100x100_2_1_1_2_0_0.contr.Idx) : (dot_S100x100x17_S100x17x100_S100x100x100_2_1_1_2_0_0.lhsIdx j k 2 : ℕ) = k ⟨0, by decide⟩ := by
  simp [DotDims.lhsIdx, dot_S100x100x17_S100x17x100_S100x100x100_2_1_1_2_0_0]; rfl
theorem rhs_0 (j : S100x100x100.Idx) (k : dot_S100x100x17_S100x17x100_S100x100x100_2_1_1_2_0_0.contr.Idx) : (dot_S100x100x17_S100x17x100_S100x100x100_2_1_1_2_0_0.rhsIdx j k 0 : ℕ) = j 0 := by
  simp [DotDims.rhsIdx, dot_S100x100x17_S100x17x100_S100x100x100_2_1_1_2_0_0]; rfl
theorem rhs_1 (j : S100x100x100.Idx) (k : dot_S100x100x17_S100x17x100_S100x100x100_2_1_1_2_0_0.contr.Idx) : (dot_S100x100x17_S100x17x100_S100x100x100_2_1_1_2_0_0.rhsIdx j k 1 : ℕ) = k ⟨0, by decide⟩ := by
  simp [DotDims.rhsIdx, dot_S100x100x17_S100x17x100_S100x100x100_2_1_1_2_0_0]; rfl
theorem rhs_2 (j : S100x100x100.Idx) (k : dot_S100x100x17_S100x17x100_S100x100x100_2_1_1_2_0_0.contr.Idx) : (dot_S100x100x17_S100x17x100_S100x100x100_2_1_1_2_0_0.rhsIdx j k 2 : ℕ) = j 2 := by
  simp [DotDims.rhsIdx, dot_S100x100x17_S100x17x100_S100x100x100_2_1_1_2_0_0]; rfl

/-- The contracted axis has the seventeen rows. -/
abbrev rows : dot_S100x100x17_S100x17x100_S100x100x100_2_1_1_2_0_0.contr.Idx ≃ Fin 17 := contrEquiv1 dot_S100x100x17_S100x17x100_S100x100x100_2_1_1_2_0_0 17 rfl rfl

theorem lhs_eq (w1 h2 w2 : Fin 100) (k : Fin 17) : dot_S100x100x17_S100x17x100_S100x100x100_2_1_1_2_0_0.lhsIdx (ix3 w1 h2 w2) (rows.symm k) = ix3 w1 h2 k := by
  funext a; apply Fin.ext
  match a with
  | ⟨0, _⟩ => exact lhs_0 _ _
  | ⟨1, _⟩ => exact lhs_1 _ _
  | ⟨2, _⟩ => exact (lhs_2 _ _).trans (contrEquiv1_symm_val _ 17 rfl rfl k)

theorem rhs_eq (w1 h2 w2 : Fin 100) (k : Fin 17) : dot_S100x100x17_S100x17x100_S100x100x100_2_1_1_2_0_0.rhsIdx (ix3 w1 h2 w2) (rows.symm k) = ix3 w1 k w2 := by
  funext a; apply Fin.ext
  match a with
  | ⟨0, _⟩ => exact rhs_0 _ _
  | ⟨1, _⟩ => exact (rhs_1 _ _).trans (contrEquiv1_symm_val _ 17 rfl rfl k)
  | ⟨2, _⟩ => exact rhs_2 _ _

/-! ## The stored block at an index -/

/-- The block the body stores at grid point `i`, at `(0, w1, h2 · 100 + w2)`: the one-hot row of the offset
    `h2 − i + 8` against column `(w1, ·, w2)` of the loaded table, summed over the seventeen rows. -/
theorem pay_apply (i : grid0.Coords) (x : Vec Ideal S100x17x100 .f32) (w1 h2 w2 : Fin 100) :
    k0_pay1 (F := Ideal) i x (ix3 (0 : Fin 1) w1 ⟨h2.val * 100 + w2.val, by have := h2.isLt; have := w2.isLt; omega⟩)
      = ∑ k : Fin 17, onehot (rel (i 0).val h2.val) k * x (ix3 w1 k w2) := by
  unfold k0_pay1
  refine (shapeCast_apply _ _ _ (ix3 w1 h2 w2) ?_).trans ?_
  · rw [Shape.rowMajor_val_three, Shape.rowMajor_val_three]
    show (w1.val * 100 + h2.val) * 100 + w2.val = (0 * 100 + w1.val) * 10000 + (h2.val * 100 + w2.val)
    omega
  refine (Ideal.matmul_constant_zero_apply _ _ _ _ (ix3 w1 h2 w2)).trans ?_
  refine ((Equiv.sum_comp rows.symm _).symm).trans ?_
  refine Finset.sum_congr rfl fun k _ => ?_
  rw [lhs_eq, rhs_eq]
  refine congrArg₂ (· * ·) ?_ ?_
  · -- the one-hot factor: through the broadcast over `w1` and the two shape casts, down to the two iotas
    refine (broadcastTo_apply _ _ (ix3 w1 h2 k) (ix3 (0 : Fin 1) h2 k) (fun a => match a with
      | ⟨0, _⟩ => by show (0 : ℕ) = if (1 : ℕ) = 1 then 0 else w1.val; rw [if_pos rfl]
      | ⟨1, _⟩ => by show h2.val = if (100 : ℕ) = 1 then 0 else h2.val; rw [if_neg (by decide)]
      | ⟨2, _⟩ => by show k.val = if (17 : ℕ) = 1 then 0 else k.val; rw [if_neg (by decide)])).trans ?_
    rw [shapeCast_self]
    refine (shapeCast_apply _ _ (ix3 (0 : Fin 1) h2 k) (ix2 h2 k) ?_).trans ?_
    · rw [Shape.rowMajor_val_two, Shape.rowMajor_val_three]
      show h2.val * 17 + k.val = (0 * 100 + h2.val) * 17 + k.val
      omega
    show FloatOps.sitofp (F := Ideal) .f32 ((IntOp.cmpi .eq (IntOp.addi (IntOp.subi
        (iota .tc S100x17 32 [0] iota_S100x17_d0_w32 (ix2 h2 k)) (BitVec.ofNat 32 (i 0).val)) 8#32)
        (iota .tc S100x17 32 [1] iota_S100x17_d1_w32 (ix2 h2 k))).setWidth 32) = _
    rw [iota_single_apply, iota_single_apply]
    rfl
  · -- the table factor: a shape cast to the same shape
    rw [shapeCast_self]

end Cert.PosBias.Kernel

end
-- ==== Proof.LibGatherPair.lean ====
/-
  A table read `x[i, j]` of a rank-2 array, as `stablehlo.gather` states it, read at an index.

  What `x[i, j]` of a table `x : [A, B]` at two integer arrays of one common shape lowers to: `lax.gather` with
  offset_dims `[]`, collapsed_slice_dims `[0, 1]`, start_index_map `[0, 1]`, slice_sizes `[1, 1]`, over start indices
  that carry the pair `(i, j)` along one axis (`index_vector_dim`, of extent 2) and otherwise have the result's shape.
  The result's element at `y` is `x` at the pair read at `y`, each component read as a signed integer and clamped into
  its axis, `[0, A − 1]` and `[0, B − 1]`, as StableHLO's gather clamps every start index. For any sizes, any result
  shape and any position of the index vector's axis.
-/
import Idealize.ShloMosaic.PureOps.ShapeOps
import Idealize.ShloMosaic.Lib.ValueIdx

namespace Cert.LibGatherPair

open Idealize.ShloMosaic Idealize.ShloMosaic.ValueIdx

variable {α : Type}

/-- Those dimension numbers for a table `[A, B]`, start indices `si` and a result `t`, the index vector on axis `iv` of
    the start indices; their conditions `wf` are decided on a program's literal shapes. -/
abbrev pairDims (A B : Nat) (si t : Shape) (iv : Nat)
    (wf : GatherDims.WF ⟨2, ![A, B]⟩ si t [] [0, 1] [] [0, 1] [] iv ![1, 1]) : GatherDims ⟨2, ![A, B]⟩ si t where
  offsetDims := []
  collapsedSliceDims := [0, 1]
  operandBatchingDims := []
  startIndicesBatchingDims := []
  startIndexMap := [0, 1]
  indexVectorDim := iv
  sliceSizes := ![1, 1]
  wf := wf

/-- The row start: the first component of the pair, read signed and clamped into `[0, A − 1]`. -/
theorem start_row {A B w : Nat} {si t : Shape} {iv : Nat}
    (wf : GatherDims.WF ⟨2, ![A, B]⟩ si t [] [0, 1] [] [0, 1] [] iv ![1, 1]) (idx : IVec si w) (y : t.Idx) :
    (pairDims A B si t iv wf).start y idx (0 : Fin (⟨2, ![A, B]⟩ : Shape).rank)
      = min (idx ((pairDims A B si t iv wf).siIdx y ⟨0, Nat.zero_lt_two⟩)).toInt.toNat (A - 1) := by
  have h0 : (0 : Fin (⟨2, ![A, B]⟩ : Shape).rank) ∈ (pairDims A B si t iv wf).startIndexMap := List.mem_cons_self
  unfold GatherDims.start
  rw [dif_pos h0]
  rfl

/-- The column start: the second component, read signed and clamped into `[0, B − 1]`. -/
theorem start_col {A B w : Nat} {si t : Shape} {iv : Nat}
    (wf : GatherDims.WF ⟨2, ![A, B]⟩ si t [] [0, 1] [] [0, 1] [] iv ![1, 1]) (idx : IVec si w) (y : t.Idx) :
    (pairDims A B si t iv wf).start y idx (1 : Fin (⟨2, ![A, B]⟩ : Shape).rank)
      = min (idx ((pairDims A B si t iv wf).siIdx y ⟨1, Nat.one_lt_two⟩)).toInt.toNat (B - 1) := by
  have h1 : (1 : Fin (⟨2, ![A, B]⟩ : Shape).rank) ∈ (pairDims A B si t iv wf).startIndexMap :=
    List.mem_cons_of_mem _ List.mem_cons_self
  unfold GatherDims.start
  rw [dif_pos h1]
  rfl

/-- THE TABLE READ AT `y`: the table at the pair of start indices `y` reads (`siIdx y 0` for the row, `siIdx y 1` for the
    column: `y`'s own coordinates with `0`, `1` on the index vector's axis), each read signed and clamped into its axis. -/
theorem gather_pair_apply {A B w : Nat} {si t : Shape} {iv : Nat} (hA : 0 < A) (hB : 0 < B)
    (wf : GatherDims.WF ⟨2, ![A, B]⟩ si t [] [0, 1] [] [0, 1] [] iv ![1, 1])
    (x : (⟨2, ![A, B]⟩ : Shape).Idx → α) (idx : IVec si w) (y : t.Idx) :
    Host.gather (pairDims A B si t iv wf) x idx y
      = x (ix2 ⟨min (idx ((pairDims A B si t iv wf).siIdx y ⟨0, Nat.zero_lt_two⟩)).toInt.toNat (A - 1), by omega⟩
               ⟨min (idx ((pairDims A B si t iv wf).siIdx y ⟨1, Nat.one_lt_two⟩)).toInt.toNat (B - 1), by omega⟩) := by
  unfold Host.gather
  congr 1
  funext a
  refine Fin.ext ?_
  show (pairDims A B si t iv wf).start y idx a + (pairDims A B si t iv wf).batchCoord y a
    + (pairDims A B si t iv wf).offCoord y a = _
  rw [GatherDims.batchCoord_eq_zero _ _ _ List.not_mem_nil,
    GatherDims.offCoord_eq_zero _ _ _ (fun h => ((GatherDims.mem_sKept _ _).mp h).1 (by
      match a with
      | ⟨0, _⟩ => exact List.mem_cons_self
      | ⟨1, _⟩ => exact List.mem_cons_of_mem _ List.mem_cons_self))]
  simp only [Nat.add_zero]
  match a with
  | ⟨0, _⟩ => exact start_row wf idx y
  | ⟨1, _⟩ => exact start_col wf idx y

end Cert.LibGatherPair
-- ==== Proof.Table.lean ====
/-
  The table the host builds for the kernel, read at an index.

  Before the region the host computes, from the 17 × 17 bias table `b`, the array `T[w1, k, w2]`: the offset word
  `r = w2 − w1 + 8` over `[w1, 1, w2]`, its band mask `0 ≤ r ≤ 16` and its clip into `[0, 16]`; the row `k` and the clipped
  column, each passed through the negative-index wrap, joined as the pair a table read takes; the read `b[k, clip r]`;
  and the select of that read against zero under the mask. So
  `T[w1, k, w2] = b[k, clip r]` when `r` is in the band, and `0` when it is not.
  The stages below are the printed operations' own compositions, named; each is read at `(w1, k, w2)`.
-/
import proofs.«421970_j23845658427614_3_alg».proof.Proof.Gen.KernelIdeal
import proofs.«421970_j23845658427614_3_alg».proof.Proof.Words
import proofs.«421970_j23845658427614_3_alg».proof.Proof.LibGatherPair
import Idealize.ShloMosaic.Lib.ValueIdx
import Idealize.ShloMosaic.Lib.Pipeline.Value
import Idealize.ShloMosaic.PureOps.Ideal.Laws

noncomputable section

namespace Cert.PosBias.Kernel

open Idealize.ShloMosaic Idealize.ShloMosaic.ValueIdx Cert.KernelIdeal Cert.PosBias
open Cert.KernelIdeal.Facts₀

/-! ## The stages -/

/-- The offset word `w2 − w1 + 8` over `[w1, 1, w2]`. -/
def relW : IVec S100x1x100 32 :=
  addi (subi (broadcastInDim S100x1x100 ![0, 1, 2] bcast_S1x1x100_S100x1x100_0_1_2
                (broadcastInDim S1x1x100 ![2] bcast_S100_S1x1x100_2 (iotaInDim S100 32 0)))
             (broadcastInDim S100x1x100 ![0, 1, 2] bcast_S100x1x1_S100x1x100_0_1_2
                (broadcastInDim S100x1x1 ![0] bcast_S100_S100x1x1_0 (iotaInDim S100 32 0))))
       (broadcastInDim S100x1x100 ![] bcast_S_S100x1x100 (constantI S_ 32 8#32))

/-- Its band mask. -/
def maskW : IVec S100x1x100 1 :=
  andi (cmpi .sge relW (broadcastInDim S100x1x100 ![] bcast_S_S100x1x100 (constantI S_ 32 0#32)))
       (cmpi .sle relW (broadcastInDim S100x1x100 ![] bcast_S_S100x1x100 (constantI S_ 32 16#32)))

/-- Its clip into `[0, 16]`. -/
def clipW : IVec S100x1x100 32 :=
  minsi (broadcastInDim S100x1x100 ![] bcast_S_S100x1x100 (id (constantI S_ 32 16#32)))
        (maxsi (broadcastInDim S100x1x100 ![] bcast_S_S100x1x100 (id (constantI S_ 32 0#32))) relW)

/-- The row `k` over `[w1, k, w2]`. -/
def rowK : IVec S100x17x100 32 :=
  broadcastInDim S100x17x100 ![0, 1, 2] bcast_S1x17x1_S100x17x100_0_1_2
    (broadcastInDim S1x17x1 ![1] bcast_S17_S1x17x1_1 (iotaInDim S17 32 0))

/-- The clipped column over `[w1, k, w2]`. -/
def colW : IVec S100x17x100 32 := broadcastInDim S100x17x100 ![0, 1, 2] bcast_S100x1x100_S100x17x100_0_1_2 clipW

/-- The mask over `[w1, k, w2]`. -/
def mask3 : IVec S100x17x100 1 := broadcastInDim S100x17x100 ![0, 1, 2] bcast_S100x1x100_S100x17x100_0_1_2 maskW

/-- The negative-index wrap of an index array. -/
def wrapv (v : IVec S100x17x100 32) : IVec S100x17x100 32 :=
  select (cmpi .slt v (broadcastInDim S100x17x100 ![] bcast_S_S100x17x100 (constantI S_ 32 0#32)))
    (addi v (broadcastInDim S100x17x100 ![] bcast_S_S100x17x100 (constantI S_ 32 17#32))) v

/-- The pairs `(row, column)` along a last axis of extent 2. -/
def pairs : IVec S100x17x100x2 32 :=
  concatenate S100x17x100x2 3
    [⟨S100x17x100x1, broadcastInDim S100x17x100x1 ![0, 1, 2] bcast_S100x17x100_S100x17x100x1_0_1_2 (wrapv rowK)⟩,
     ⟨S100x17x100x1, broadcastInDim S100x17x100x1 ![0, 1, 2] bcast_S100x17x100_S100x17x100x1_0_1_2 (wrapv colW)⟩]
    concatenates_S100x17x100x1_S100x17x100x1_S100x17x100x2_d3

/-- THE TABLE: the bias table read at the pairs, against zero under the mask. -/
def table (b : FVec Ideal S17x17 .f32) : FVec Ideal S100x17x100 .f32 :=
  select mask3 (Host.gather gather_S17x17_S100x17x100x2_S100x17x100_n_01_n_n_01_3_11 b pairs)
    (broadcastInDim S100x17x100 ![] bcast_S_S100x17x100 (constant (F := Ideal) S_ .f32 0x00000000#32))

/-! ## The stages at an index -/

theorem relW_apply (w1 w2 : Fin 100) : relW (ix3 w1 (0 : Fin 1) w2) = rel w1.val w2.val := rfl

theorem maskW_apply (w1 w2 : Fin 100) : maskW (ix3 w1 (0 : Fin 1) w2) = inband (rel w1.val w2.val) := rfl

theorem clipW_apply (w1 w2 : Fin 100) : clipW (ix3 w1 (0 : Fin 1) w2) = clip (rel w1.val w2.val) := rfl

theorem mask3_apply (w1 : Fin 100) (k : Fin 17) (w2 : Fin 100) : mask3 (ix3 w1 k w2) = inband (rel w1.val w2.val) := rfl

theorem wrap_rowK_apply (w1 : Fin 100) (k : Fin 17) (w2 : Fin 100) :
    wrapv rowK (ix3 w1 k w2) = wrap (BitVec.ofNat 32 k.val) := rfl

theorem wrap_colW_apply (w1 : Fin 100) (k : Fin 17) (w2 : Fin 100) :
    wrapv colW (ix3 w1 k w2) = wrap (clip (rel w1.val w2.val)) := rfl

/-! ## The table read -/

open Cert.LibGatherPair in
/-- The printed dimension numbers are those of a table read `b[i, j]` with the pair on the last axis. -/
theorem gather_dims : gather_S17x17_S100x17x100x2_S100x17x100_n_01_n_n_01_3_11 = pairDims 17 17 S100x17x100x2 S100x17x100 3 gather_S17x17_S100x17x100x2_S100x17x100_n_01_n_n_01_3_11_wf := rfl

open Cert.LibGatherPair in
/-- Where `(w1, k, w2)` reads its row index: `(w1, k, w2, 0)`. -/
theorem si_row (w1 : Fin 100) (k : Fin 17) (w2 : Fin 100) :
    (pairDims 17 17 S100x17x100x2 S100x17x100 3 gather_S17x17_S100x17x100x2_S100x17x100_n_01_n_n_01_3_11_wf).siIdx (ix3 w1 k w2) ⟨0, Nat.zero_lt_two⟩
      = ix4 w1 k w2 (0 : Fin 2) := by
  funext a; refine Fin.ext ?_
  match a with
  | ⟨0, _⟩ => rfl
  | ⟨1, _⟩ => rfl
  | ⟨2, _⟩ => rfl
  | ⟨3, _⟩ => rfl

open Cert.LibGatherPair in
/-- Where it reads its column index: `(w1, k, w2, 1)`. -/
theorem si_col (w1 : Fin 100) (k : Fin 17) (w2 : Fin 100) :
    (pairDims 17 17 S100x17x100x2 S100x17x100 3 gather_S17x17_S100x17x100x2_S100x17x100_n_01_n_n_01_3_11_wf).siIdx (ix3 w1 k w2) ⟨1, Nat.one_lt_two⟩
      = ix4 w1 k w2 (1 : Fin 2) := by
  funext a; refine Fin.ext ?_
  match a with
  | ⟨0, _⟩ => rfl
  | ⟨1, _⟩ => rfl
  | ⟨2, _⟩ => rfl
  | ⟨3, _⟩ => rfl

/-- The pair's first component is the wrapped row. -/
theorem pairs_row (w1 : Fin 100) (k : Fin 17) (w2 : Fin 100) :
    pairs (ix4 w1 k w2 (0 : Fin 2)) = wrap (BitVec.ofNat 32 k.val) := by
  unfold pairs
  refine (concatenate_pair_apply_left 3 _ _ concatenates_S100x17x100x1_S100x17x100x1_S100x17x100x2_d3 (ix4 w1 k w2 (0 : Fin 2)) rfl
    (ix4 w1 k w2 (0 : Fin 1)) (fun a => match a with
      | ⟨0, _⟩ => rfl
      | ⟨1, _⟩ => rfl
      | ⟨2, _⟩ => rfl
      | ⟨3, _⟩ => rfl)).trans ?_
  exact wrap_rowK_apply w1 k w2

/-- The pair's second component is the wrapped clipped column. -/
theorem pairs_col (w1 : Fin 100) (k : Fin 17) (w2 : Fin 100) :
    pairs (ix4 w1 k w2 (1 : Fin 2)) = wrap (clip (rel w1.val w2.val)) := by
  unfold pairs
  refine (concatenate_pair_apply_right 3 _ _ concatenates_S100x17x100x1_S100x17x100x1_S100x17x100x2_d3 (ix4 w1 k w2 (1 : Fin 2)) rfl rfl
    (ix4 w1 k w2 (0 : Fin 1)) (fun a => match a with
      | ⟨0, _⟩ => fun _ => rfl
      | ⟨1, _⟩ => fun _ => rfl
      | ⟨2, _⟩ => fun _ => rfl
      | ⟨3, _⟩ => fun h => absurd rfl h) rfl).trans ?_
  exact wrap_colW_apply w1 k w2

/-- THE TABLE AT `(w1, k, w2)`: the bias table at row `k` and the clipped column of the offset `w2 − w1 + 8` when the
    offset is in the band, `0` when it is not. -/
theorem table_apply (b : FVec Ideal S17x17 .f32) (w1 : Fin 100) (k : Fin 17) (w2 : Fin 100) :
    table b (ix3 w1 k w2)
      = Scalar.select (inband (rel w1.val w2.val))
          (b (ix2 (pos (wrap (BitVec.ofNat 32 k.val))) (pos (wrap (clip (rel w1.val w2.val)))))) (0 : EReal) := by
  show Scalar.select (mask3 (ix3 w1 k w2)) (Host.gather gather_S17x17_S100x17x100x2_S100x17x100_n_01_n_n_01_3_11 b pairs (ix3 w1 k w2))
    (Ideal.ofBits .f32 0x00000000#32) = _
  rw [mask3_apply, Ideal.ofBits_zero_f32, gather_dims,
    Cert.LibGatherPair.gather_pair_apply (by decide) (by decide)]
  simp only [si_row, si_col, pairs_row, pairs_col]
  rfl

end Cert.PosBias.Kernel

end
-- ==== Proof.KernelValue.lean ====
/-
  The idealized kernel's result, as one function of the bias table.

  The region has 100 grid points, one per `h1`. Its input window is the whole host-built table `T[w1, k, w2]` at every
  point; its output window's block at point `h1` is slab `[h1, :, :]` of the `100 × 100 × 10000` result array. What point
  `h1` writes back at `(0, w1, h2 · 100 + w2)` is the one-hot sum over the rows of `T`, which is the bias at the clipped
  offsets under the two band masks: block `h1` of ONE whole array (`arr3`). The slabs tile the array, so the array ends
  holding `arr3`; the two reshapes after the region split the merged axis back into `(h2, w2)` — the specification
  `G4` — and add two leading unit axes.
-/
import proofs.«421970_j23845658427614_3_alg».proof.Proof.FrameKernelIdeal
import proofs.«421970_j23845658427614_3_alg».proof.Proof.Payload
import proofs.«421970_j23845658427614_3_alg».proof.Proof.Table
import Idealize.ShloMosaic.Lib.Pipeline.Value
import Idealize.ShloMosaic.Lib.StableHlo.Run

set_option maxRecDepth 16384

noncomputable section

namespace Cert.PosBias.Kernel

open Idealize.ShloMosaic Idealize.ShloMosaic.TcCoe Idealize.ShloMosaic.ValueIdx Idealize.SL.Sem
open Idealize.ShloMosaic.StableHlo
open Cert.KernelIdeal Cert.KernelIdeal.Gen Cert.KernelIdeal.GenP Cert.PosBias

variable (m : (ℓ : Loc nD τ sig) → Buf (Elt Ideal) ℓ) (ρ : Dev nD → PrngReg)

/-- The bias table as launched. -/
abbrev bias (c : Dev nD) : FVec Ideal S17x17 .f32 := m ((c : Thread nD τ).loc main_arg1)

/-! ## The input window: the host-built table, whole, at every point -/

/-! ## The host's lines before the region, read in two stretches (cut before the join of the index pairs) -/

/-- The third stretch's first 19 operations, as printed: the row, the clipped column and the mask spread over `[w1, k, w2]`,
    the two wraps, and the two index arrays with their unit last axis. -/
abbrev h2a : List (HloOp τ sig (Elt Ideal)) :=
  [ StableHlo.unary main_v5 main_v17 (broadcastInDim S100x17x100 ![0, 1, 2] bcast_S1x17x1_S100x17x100_0_1_2 : (⟨S1x17x1, .i32⟩ : BufTy).Contents (Elt Ideal) → (⟨S100x17x100, .i32⟩ : BufTy).Contents (Elt Ideal)),
    StableHlo.unary main_v16 main_v18 (broadcastInDim S100x17x100 ![0, 1, 2] bcast_S100x1x100_S100x17x100_0_1_2 : (⟨S100x1x100, .i32⟩ : BufTy).Contents (Elt Ideal) → (⟨S100x17x100, .i32⟩ : BufTy).Contents (Elt Ideal)),
    StableHlo.unary main_v15 main_v19 (broadcastInDim S100x17x100 ![0, 1, 2] bcast_S100x1x100_S100x17x100_0_1_2 : (⟨S100x1x100, .i1⟩ : BufTy).Contents (Elt Ideal) → (⟨S100x17x100, .i1⟩ : BufTy).Contents (Elt Ideal)),
    StableHlo.nullary main_c_4 (constantI S_ 32 0#32),
    StableHlo.unary main_c_4 main_v20 (broadcastInDim S100x17x100 ![] bcast_S_S100x17x100 : (⟨S_, .i32⟩ : BufTy).Contents (Elt Ideal) → (⟨S100x17x100, .i32⟩ : BufTy).Contents (Elt Ideal)),
    StableHlo.binary main_v17 main_v20 main_v21 (cmpi .slt : (⟨S100x17x100, .i32⟩ : BufTy).Contents (Elt Ideal) → (⟨S100x17x100, .i32⟩ : BufTy).Contents (Elt Ideal) → (⟨S100x17x100, .i1⟩ : BufTy).Contents (Elt Ideal)),
    StableHlo.nullary main_c_5 (constantI S_ 32 17#32),
    StableHlo.unary main_c_5 main_v22 (broadcastInDim S100x17x100 ![] bcast_S_S100x17x100 : (⟨S_, .i32⟩ : BufTy).Contents (Elt Ideal) → (⟨S100x17x100, .i32⟩ : BufTy).Contents (Elt Ideal)),
    StableHlo.binary main_v17 main_v22 main_v23 (addi : (⟨S100x17x100, .i32⟩ : BufTy).Contents (Elt Ideal) → (⟨S100x17x100, .i32⟩ : BufTy).Contents (Elt Ideal) → (⟨S100x17x100, .i32⟩ : BufTy).Contents (Elt Ideal)),
    StableHlo.ternary main_v21 main_v23 main_v17 main_v24 (select : (⟨S100x17x100, .i1⟩ : BufTy).Contents (Elt Ideal) → (⟨S100x17x100, .i32⟩ : BufTy).Contents (Elt Ideal) → (⟨S100x17x100, .i32⟩ : BufTy).Contents (Elt Ideal) → (⟨S100x17x100, .i32⟩ : BufTy).Contents (Elt Ideal)),
    StableHlo.nullary main_c_6 (constantI S_ 32 0#32),
    StableHlo.unary main_c_6 main_v25 (broadcastInDim S100x17x100 ![] bcast_S_S100x17x100 : (⟨S_, .i32⟩ : BufTy).Contents (Elt Ideal) → (⟨S100x17x100, .i32⟩ : BufTy).Contents (Elt Ideal)),
    StableHlo.binary main_v18 main_v25 main_v26 (cmpi .slt : (⟨S100x17x100, .i32⟩ : BufTy).Contents (Elt Ideal) → (⟨S100x17x100, .i32⟩ : BufTy).Contents (Elt Ideal) → (⟨S100x17x100, .i1⟩ : BufTy).Contents (Elt Ideal)),
    StableHlo.nullary main_c_7 (constantI S_ 32 17#32),
    StableHlo.unary main_c_7 main_v27 (broadcastInDim S100x17x100 ![] bcast_S_S100x17x100 : (⟨S_, .i32⟩ : BufTy).Contents (Elt Ideal) → (⟨S100x17x100, .i32⟩ : BufTy).Contents (Elt Ideal)),
    StableHlo.binary main_v18 main_v27 main_v28 (addi : (⟨S100x17x100, .i32⟩ : BufTy).Contents (Elt Ideal) → (⟨S100x17x100, .i32⟩ : BufTy).Contents (Elt Ideal) → (⟨S100x17x100, .i32⟩ : BufTy).Contents (Elt Ideal)),
    StableHlo.ternary main_v26 main_v28 main_v18 main_v29 (select : (⟨S100x17x100, .i1⟩ : BufTy).Contents (Elt Ideal) → (⟨S100x17x100, .i32⟩ : BufTy).Contents (Elt Ideal) → (⟨S100x17x100, .i32⟩ : BufTy).Contents (Elt Ideal) → (⟨S100x17x100, .i32⟩ : BufTy).Contents (Elt Ideal)),
    StableHlo.unary main_v24 main_v30 (broadcastInDim S100x17x100x1 ![0, 1, 2] bcast_S100x17x100_S100x17x100x1_0_1_2 : (⟨S100x17x100, .i32⟩ : BufTy).Contents (Elt Ideal) → (⟨S100x17x100x1, .i32⟩ : BufTy).Contents (Elt Ideal)),
    StableHlo.unary main_v29 main_v31 (broadcastInDim S100x17x100x1 ![0, 1, 2] bcast_S100x17x100_S100x17x100x1_0_1_2 : (⟨S100x17x100, .i32⟩ : BufTy).Contents (Elt Ideal) → (⟨S100x17x100x1, .i32⟩ : BufTy).Contents (Elt Ideal)) ]

/-- Its last 3, as printed: the join of the index pairs, the table read, the zero. -/
abbrev h2b : List (HloOp τ sig (Elt Ideal)) :=
  [ StableHlo.binary main_v30 main_v31 main_v32 ((fun a b => concatenate S100x17x100x2 3 [⟨S100x17x100x1, a⟩, ⟨S100x17x100x1, b⟩] concatenates_S100x17x100x1_S100x17x100x1_S100x17x100x2_d3) : (⟨S100x17x100x1, .i32⟩ : BufTy).Contents (Elt Ideal) → (⟨S100x17x100x1, .i32⟩ : BufTy).Contents (Elt Ideal) → (⟨S100x17x100x2, .i32⟩ : BufTy).Contents (Elt Ideal)),
    StableHlo.binary main_arg1 main_v32 main_v33 ((fun x i => Host.gather gather_S17x17_S100x17x100x2_S100x17x100_n_01_n_n_01_3_11 x i) : (⟨S17x17, .f32⟩ : BufTy).Contents (Elt Ideal) → (⟨S100x17x100x2, .i32⟩ : BufTy).Contents (Elt Ideal) → (⟨S100x17x100, .f32⟩ : BufTy).Contents (Elt Ideal)),
    StableHlo.nullary main_cst (constant (F := Ideal) S_ .f32 0x00000000#32) ]

theorem h2_split : (hostOps0_2 : List (HloOp τ sig (Elt Ideal))) = h2a ++ h2b := rfl

/-- The contents the region finds are the second stretch's fold over the first's. -/
theorem V0_cut (c : Dev nD) :
    V0 m c = after (h2b ++ hostOps0_3) (after (hostOps0 ++ hostOps0_1 ++ h2a) (fun b => m (c, b))) := by
  show after (List.flatten [hostOps0, hostOps0_1, hostOps0_2, hostOps0_3]) _ = _
  rw [← StableHlo.after_append, h2_split]
  simp only [List.flatten_cons, List.flatten_nil, List.append_nil, List.append_assoc]

section Pre
variable (X : Valuation τ sig (Elt Ideal))

set_option maxHeartbeats 8000000 in
theorem P_row : after (hostOps0 ++ hostOps0_1 ++ h2a) X (Proc.devRef .tc main_v30)
    = broadcastInDim S100x17x100x1 ![0, 1, 2] bcast_S100x17x100_S100x17x100x1_0_1_2 (wrapv rowK) := by
  rw [StableHlo.after_append, StableHlo.after_append]
  after_results_simp <;> (try simp only [TRef.ofBuf, TRef.toBuf, cast_eq]) <;> rfl

set_option maxHeartbeats 8000000 in
theorem P_col : after (hostOps0 ++ hostOps0_1 ++ h2a) X (Proc.devRef .tc main_v31)
    = broadcastInDim S100x17x100x1 ![0, 1, 2] bcast_S100x17x100_S100x17x100x1_0_1_2 (wrapv colW) := by
  rw [StableHlo.after_append, StableHlo.after_append]
  after_results_simp <;> (try simp only [TRef.ofBuf, TRef.toBuf, cast_eq]) <;> rfl

set_option maxHeartbeats 8000000 in
theorem P_mask : after (hostOps0 ++ hostOps0_1 ++ h2a) X (Proc.devRef .tc main_v19) = mask3 := by
  rw [StableHlo.after_append, StableHlo.after_append]
  after_results_simp <;> (try simp only [TRef.ofBuf, TRef.toBuf, cast_eq]) <;> rfl

set_option maxHeartbeats 8000000 in
theorem P_arg1 : after (hostOps0 ++ hostOps0_1 ++ h2a) X (Proc.devRef .tc main_arg1) = X (Proc.devRef .tc main_arg1) := by
  rw [StableHlo.after_append, StableHlo.after_append]
  after_results_simp <;> rfl

end Pre

set_option maxHeartbeats 8000000 in
/-- The second stretch over any contents of the four buffers it reads. -/
theorem Q_out (W : Valuation τ sig (Elt Ideal)) :
    after (h2b ++ hostOps0_3) W (Proc.devRef .tc main_v34)
      = select (W (Proc.devRef .tc main_v19))
          (Host.gather gather_S17x17_S100x17x100x2_S100x17x100_n_01_n_n_01_3_11 (W (Proc.devRef .tc main_arg1))
            (concatenate S100x17x100x2 3 [⟨S100x17x100x1, W (Proc.devRef .tc main_v30)⟩, ⟨S100x17x100x1, W (Proc.devRef .tc main_v31)⟩]
              concatenates_S100x17x100x1_S100x17x100x1_S100x17x100x2_d3))
          (broadcastInDim S100x17x100 ![] bcast_S_S100x17x100 (constant (F := Ideal) S_ .f32 0x00000000#32)) := by
  rw [StableHlo.after_append]
  after_results
  rfl

/-- The region finds the host's table in its input array. -/
theorem V_table (c : Dev nD) : (V m c main_v34 : S100x17x100.Idx → EReal) = table (bias m c) := by
  show V0 m c (Proc.devRef .tc main_v34) = _
  rw [V0_cut, Q_out, P_row, P_col, P_mask, P_arg1]
  rfl

theorem hz3 : (![0, 0, 0] : Fin 3 → Nat) = fun _ => 0 := funext fun a => by fin_cases a <;> rfl

/-- The printed index maps over the grid: the input window stays at block `(0, 0, 0)`; the output window's block is
    `(h1, 0, 0)` with `h1` the point's one coordinate. -/
theorem idx_facts : ∀ t : Fin cfg0.N, win0_0.index t (0 : Fin 3) = 0 ∧ win0_0.index t (1 : Fin 3) = 0
    ∧ win0_0.index t (2 : Fin 3) = 0 ∧ win0_1.index t (0 : Fin 3) = (grid0.coords t 0).val
    ∧ win0_1.index t (1 : Fin 3) = 0 ∧ win0_1.index t (2 : Fin 3) = 0 :=
  (by decide +kernel : ∀ t : Fin grid0.N, _)

/-- Every `h1` is some point's coordinate. -/
theorem idx_onto : ∀ q : Fin 100, ∃ t : Fin cfg0.N, (grid0.coords t 0).val = q.val :=
  (by decide +kernel : ∀ q : Fin 100, ∃ t : Fin grid0.N, (grid0.coords t 0).val = q.val)

/-- The input window's block at any point is the whole table. -/
theorem iblk_eq (c : Dev nD) (t : Fin cfg0.N) : (iblk m c 0 t : S100x17x100.Idx → EReal) = table (bias m c) := by
  funext y
  show V m c main_v34 (((cfg0.win 0).blk t).view.emb y) = _
  obtain ⟨e0, e1, e2, -⟩ := idx_facts t
  have he : ((cfg0.win 0).blk t).view.emb y = y := by
    funext a; apply Fin.ext
    match a with
    | ⟨0, _⟩ => show win0_0.index t (0 : Fin 3) * 100 + 1 * (y 0).val = (y 0).val; omega
    | ⟨1, _⟩ => show win0_0.index t (1 : Fin 3) * 17 + 1 * (y 1).val = (y 1).val; omega
    | ⟨2, _⟩ => show win0_0.index t (2 : Fin 3) * 100 + 1 * (y 2).val = (y 2).val; omega
  rw [he]
  exact congrFun (V_table m c) y

/-! ## The output window: slab `h1` of one whole array -/

/-- THE RESULT ARRAY of the region, `100 × 100 × 10000`: at `(h1, w1, q)` the specification at `(h1, w1, q / 100, q % 100)`. -/
def arr3 (b : FVec Ideal S17x17 .f32) : S100x100x10000.Idx → EReal := fun i =>
  G4 b (ix4 (i 0) (i 1) ⟨(i 2).val / 100, by have h : (i 2).val < 10000 := (i 2).isLt; omega⟩
    ⟨(i 2).val % 100, Nat.mod_lt _ (by decide)⟩)

/-- WHAT POINT `t` WRITES BACK is block `t` of `arr3`. -/
theorem flushed_eq (c : Dev nD) (t : Fin cfg0.N) :
    (dats m 0 c).flushed 1 t = ((cfg0.win 1).blk t).view.read (Elt Ideal) (arr3 (bias m c)) := by
  show (cfg0.win 1).cut (grid0.coords t) ((dats m 0 c).after 1 t) = _
  rw [after0_1]
  unfold out0_1
  rw [View.canon_unit_zero hz3]
  simp only [View.ld_unit_zero (S := S100x17x100) hz3]
  obtain ⟨-, -, -, e0, e1, e2⟩ := idx_facts t
  funext j
  obtain ⟨j0, w1, q, rfl⟩ : ∃ (j0 : Fin 1) (w1 : Fin 100) (q : Fin 10000), j = ix3 j0 w1 q := ⟨j 0, j 1, j 2, eq_ix3 j⟩
  obtain rfl : j0 = 0 := Subsingleton.elim _ _
  have hq1 : q.val / 100 < 100 := by have := q.isLt; omega
  have hq2 : q.val % 100 < 100 := Nat.mod_lt _ (by decide)
  have hq : q = ⟨(⟨q.val / 100, hq1⟩ : Fin 100).val * 100 + (⟨q.val % 100, hq2⟩ : Fin 100).val, by
      show q.val / 100 * 100 + q.val % 100 < 10000; have := q.isLt; omega⟩ :=
    Fin.ext (by show q.val = q.val / 100 * 100 + q.val % 100; omega)
  have hemb : ((cfg0.win 1).blk t).view.emb (ix3 (0 : Fin 1) w1 q) = ix3 (grid0.coords t 0) w1 q := by
    funext a; apply Fin.ext
    match a with
    | ⟨0, _⟩ => show win0_1.index t (0 : Fin 3) * 1 + 1 * 0 = (grid0.coords t 0).val; omega
    | ⟨1, _⟩ => show win0_1.index t (1 : Fin 3) * 100 + 1 * w1.val = w1.val; omega
    | ⟨2, _⟩ => show win0_1.index t (2 : Fin 3) * 10000 + 1 * q.val = q.val; omega
  show k0_pay1 (F := Ideal) (grid0.coords t) (iblk m c 0 t) (ix3 (0 : Fin 1) w1 q)
    = arr3 (bias m c) (((cfg0.win 1).blk t).view.emb (ix3 (0 : Fin 1) w1 q))
  rw [hemb, iblk_eq]
  show _ = G4 (bias m c) (ix4 (grid0.coords t 0) w1 ⟨q.val / 100, hq1⟩ ⟨q.val % 100, hq2⟩)
  refine (congrArg (k0_pay1 (F := Ideal) (grid0.coords t) (table (bias m c))) (congrArg (ix3 (0 : Fin 1) w1) hq)).trans ?_
  refine (pay_apply (grid0.coords t) (table (bias m c)) w1 ⟨q.val / 100, hq1⟩ ⟨q.val % 100, hq2⟩).trans ?_
  exact sum_rows (bias m c) (grid0.coords t 0).val w1.val (q.val / 100) (q.val % 100) _
    (fun k => table_apply (bias m c) w1 k ⟨q.val % 100, hq2⟩)

/-- An index of the array is in point `t`'s block iff each coordinate is in the block's range on its axis. -/
theorem mem_blk (t : Fin cfg0.N) (i : S100x100x10000.Idx) :
    i ∈ ((cfg0.win 1).blk t).view.set ↔ ∀ a : Fin 3, win0_1.index t a * S1x100x10000.size a ≤ (i a).val
      ∧ (i a).val < win0_1.index t a * S1x100x10000.size a + S1x100x10000.size a := by
  show i ∈ ((View.whole main_v35).slice (win0_1.rect t)).set ↔ _
  rw [View.set_slice_whole, Rect.mem_set_unit]
  exact Iff.rfl

/-- The slabs cover the array: index `(h1, w1, q)` is in the block of the point whose coordinate is `h1`. -/
theorem cover (i : S100x100x10000.Idx) :
    ∃ t : Fin cfg0.N, (cfg0.win 1).flush t = true ∧ i ∈ ((cfg0.win 1).blk t).view.set := by
  obtain ⟨t, ht⟩ := idx_onto (i 0)
  obtain ⟨-, -, -, e0, e1, e2⟩ := idx_facts t
  refine ⟨t, flush0_1 t, ?_⟩
  rw [mem_blk]
  intro a
  have h1 : (i 1).val < 100 := (i 1).isLt
  have h2 : (i 2).val < 10000 := (i 2).isLt
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 100 ≤ (i 1).val ∧ (i 1).val < win0_1.index t (1 : Fin 3) * 100 + 100
    omega
  | ⟨2, _⟩ =>
    show win0_1.index t (2 : Fin 3) * 10000 ≤ (i 2).val ∧ (i 2).val < win0_1.index t (2 : Fin 3) * 10000 + 10000
    omega

/-- THE ARRAY after the region. -/
theorem final (c : Dev nD) : (dats m 0 c).arrAt 1 cfg0.N = arr3 (bias m c) :=
  (dats m 0 c).arrAt_eq_of_cover 1 (arr3 (bias m c)) (fun t _ => flushed_eq m c t) cover

/-! ## The lines after the region -/

/-- The first reshape splits the merged axis: the `100 × 100 × 100 × 100` array is the specification. -/
theorem arr4 (b : FVec Ideal S17x17 .f32) :
    shapeCast S100x100x100x100 (arr3 b) shapeCasts_S100x100x10000_S100x100x100x100 = G4 b := by
  funext i
  obtain ⟨h1, w1, h2, w2, rfl⟩ : ∃ (h1 w1 h2 w2 : Fin 100), i = ix4 h1 w1 h2 w2 := ⟨i 0, i 1, i 2, i 3, eq_ix4 i⟩
  have hlt : h2.val * 100 + w2.val < 10000 := by have := h2.isLt; have := w2.isLt; omega
  refine (shapeCast_apply _ _ (ix4 h1 w1 h2 w2) (ix3 h1 w1 ⟨h2.val * 100 + w2.val, hlt⟩) ?_).trans ?_
  · rw [Shape.rowMajor_val_three, Shape.rowMajor_val_four]
    show (h1.val * 100 + w1.val) * 10000 + (h2.val * 100 + w2.val) = ((h1.val * 100 + w1.val) * 100 + h2.val) * 100 + w2.val
    omega
  have e1 : (⟨(h2.val * 100 + w2.val) / 100, by omega⟩ : Fin 100) = h2 :=
    Fin.ext (by show (h2.val * 100 + w2.val) / 100 = h2.val; have := w2.isLt; omega)
  have e2 : (⟨(h2.val * 100 + w2.val) % 100, Nat.mod_lt _ (by decide)⟩ : Fin 100) = w2 :=
    Fin.ext (by show (h2.val * 100 + w2.val) % 100 = w2.val; have := w2.isLt; omega)
  show G4 b (ix4 h1 w1 ⟨(h2.val * 100 + w2.val) / 100, _⟩ ⟨(h2.val * 100 + w2.val) % 100, _⟩) = _
  rw [e1, e2]

/-- THE RESULT of @main: the specification with two leading unit axes. -/
theorem result (c : Dev nD) :
    Pipeline.afterTail₀ cfgs (dats m) 0 (V0 m) [hostOps1] c main_v37
      = shapeCast S1x1x100x100x100x100 (G4 (bias m c)) shapeCasts_S100x100x100x100_S1x1x100x100x100x100 := by
  have hA : Pipeline.withArrays spec0 c (V0 m c) (fun w => (dats m 0 c).arrAt w cfg0.N) (Proc.devRef .tc main_v35)
      = arr3 (bias m c) :=
    (Pipeline.withArrays_arr spec0 launch0.win.arr_inj c _ _ 1).trans (final m c)
  unfold Pipeline.afterTail₀
  show StableHlo.after hostOps1 _ (Proc.devRef .tc main_v37) = _
  after_results
  rw [hA]
  show shapeCast S1x1x100x100x100x100
    (shapeCast S100x100x100x100 (arr3 (bias m c)) shapeCasts_S100x100x10000_S100x100x100x100)
    shapeCasts_S100x100x100x100_S1x1x100x100x100x100 = _
  rw [arr4]

/-! ## The run, read -/

/-- Every weakly fair execution of the idealized kernel's @main terminates with the result at the specification of the
    bias table as launched, and the arguments unchanged. -/
theorem run : θ_run defs (onTc (τ := τ) (main (F := Ideal))) ⟨m, fun _ => 0, ρ⟩ fun r => ∀ c : Dev nD,
      r.2.mem ((c : Thread nD τ).loc main_v37)
        = shapeCast S1x1x100x100x100x100 (G4 (bias m c)) shapeCasts_S100x100x100x100_S1x1x100x100x100x100
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v37 (Pipeline.mem_restRefs_of main_v37 (by decide) (by decide))).trans (result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.PosBias.Kernel

end
-- ==== Proof.RefValue.lean ====
/-
  The idealized reference's stages, and its selected array as the specification.

  The reference computes ONE offset matrix `c − a + 8` over `[a, c]` (twice, from two equal iotas: once for the rows
  `(h1, h2)`, once for the columns `(w1, w2)`), its band mask and its clip; spreads the clipped offsets over
  `[h1, 1, h2, 1]` and `[1, w1, 1, w2]`, passes each through the negative-index wrap, broadcasts both to
  `[h1, w1, h2, w2]` and joins them as the pair a table read takes; reads the bias table at the pairs; and selects
  that read against zero under the conjunction of the two masks. The stages below are the printed operations' own
  compositions, named; each is read at `(h1, w1, h2, w2)`, and the selected array is the specification `G4`: the
  conjunction of the masks selects as the two selects nested.
-/
import proofs.«421970_j23845658427614_3_alg».proof.Proof.Gen.ReferenceIdeal
import proofs.«421970_j23845658427614_3_alg».proof.Proof.Words
import proofs.«421970_j23845658427614_3_alg».proof.Proof.LibGatherPair
import Idealize.ShloMosaic.Lib.ValueIdx
import Idealize.ShloMosaic.Lib.Pipeline.Value
import Idealize.ShloMosaic.PureOps.Ideal.Laws

set_option maxRecDepth 16384

noncomputable section

namespace Cert.PosBias.Ref

open Idealize.ShloMosaic Idealize.ShloMosaic.ValueIdx Cert.ReferenceIdeal Cert.PosBias
open Cert.ReferenceIdeal.Facts₀

/-! ## The stages -/

/-- The offset word `c − a + 8` over `[a, c]`. -/
def rel2 : IVec S100x100 32 :=
  addi (subi (broadcastInDim S100x100 ![0, 1] bcast_S1x100_S100x100_0_1
                (broadcastInDim S1x100 ![1] bcast_S100_S1x100_1 (iotaInDim S100 32 0)))
             (broadcastInDim S100x100 ![0, 1] bcast_S100x1_S100x100_0_1
                (broadcastInDim S100x1 ![0] bcast_S100_S100x1_0 (iotaInDim S100 32 0))))
       (broadcastInDim S100x100 ![] bcast_S_S100x100 (constantI S_ 32 8#32))

/-- Its band mask. -/
def mask2 : IVec S100x100 1 :=
  andi (cmpi .sge rel2 (broadcastInDim S100x100 ![] bcast_S_S100x100 (constantI S_ 32 0#32)))
       (cmpi .sle rel2 (broadcastInDim S100x100 ![] bcast_S_S100x100 (constantI S_ 32 16#32)))

/-- Its clip into `[0, 16]`. -/
def clip2 : IVec S100x100 32 :=
  minsi (broadcastInDim S100x100 ![] bcast_S_S100x100 (id (constantI S_ 32 16#32)))
        (maxsi (broadcastInDim S100x100 ![] bcast_S_S100x100 (id (constantI S_ 32 0#32))) rel2)

/-- The clipped row offset over `[h1, 1, h2, 1]`, wrapped. -/
def wrapH : IVec S100x1x100x1 32 :=
  select (cmpi .slt (broadcastInDim S100x1x100x1 ![0, 2] bcast_S100x100_S100x1x100x1_0_2 clip2)
            (broadcastInDim S100x1x100x1 ![] bcast_S_S100x1x100x1 (constantI S_ 32 0#32)))
    (addi (broadcastInDim S100x1x100x1 ![0, 2] bcast_S100x100_S100x1x100x1_0_2 clip2)
            (broadcastInDim S100x1x100x1 ![] bcast_S_S100x1x100x1 (constantI S_ 32 17#32)))
    (broadcastInDim S100x1x100x1 ![0, 2] bcast_S100x100_S100x1x100x1_0_2 clip2)

/-- The clipped column offset over `[1, w1, 1, w2]`, wrapped. -/
def wrapW : IVec S1x100x1x100 32 :=
  select (cmpi .slt (broadcastInDim S1x100x1x100 ![1, 3] bcast_S100x100_S1x100x1x100_1_3 clip2)
            (broadcastInDim S1x100x1x100 ![] bcast_S_S1x100x1x100 (constantI S_ 32 0#32)))
    (addi (broadcastInDim S1x100x1x100 ![1, 3] bcast_S100x100_S1x100x1x100_1_3 clip2)
            (broadcastInDim S1x100x1x100 ![] bcast_S_S1x100x1x100 (constantI S_ 32 17#32)))
    (broadcastInDim S1x100x1x100 ![1, 3] bcast_S100x100_S1x100x1x100_1_3 clip2)

/-- The row indices over `[h1, w1, h2, w2, 1]`. -/
def row5 : IVec S100x100x100x100x1 32 :=
  broadcastInDim S100x100x100x100x1 ![0, 1, 2, 3] bcast_S100x100x100x100_S100x100x100x100x1_0_1_2_3
    (broadcastInDim S100x100x100x100 ![0, 1, 2, 3] bcast_S100x1x100x1_S100x100x100x100_0_1_2_3 wrapH)

/-- The column indices over `[h1, w1, h2, w2, 1]`. -/
def col5 : IVec S100x100x100x100x1 32 :=
  broadcastInDim S100x100x100x100x1 ![0, 1, 2, 3] bcast_S100x100x100x100_S100x100x100x100x1_0_1_2_3
    (broadcastInDim S100x100x100x100 ![0, 1, 2, 3] bcast_S1x100x1x100_S100x100x100x100_0_1_2_3 wrapW)

/-- The pairs `(row, column)` along a last axis of extent 2, from any two index arrays. -/
def pairsOf (p q : IVec S100x100x100x100x1 32) : IVec S100x100x100x100x2 32 :=
  concatenate S100x100x100x100x2 4 [⟨S100x100x100x100x1, p⟩, ⟨S100x100x100x100x1, q⟩] concatenates_S100x100x100x100x1_S100x100x100x100x1_S100x100x100x100x2_d4

/-- The conjunction of the two masks over `[h1, w1, h2, w2]`, from any two mask matrices. -/
def maskOf (mh mw : IVec S100x100 1) : IVec S100x100x100x100 1 :=
  andi (broadcastInDim S100x100x100x100 ![0, 1, 2, 3] bcast_S100x1x100x1_S100x100x100x100_0_1_2_3
          (broadcastInDim S100x1x100x1 ![0, 2] bcast_S100x100_S100x1x100x1_0_2 mh))
       (broadcastInDim S100x100x100x100 ![0, 1, 2, 3] bcast_S1x100x1x100_S100x100x100x100_0_1_2_3
          (broadcastInDim S1x100x1x100 ![1, 3] bcast_S100x100_S1x100x1x100_1_3 mw))

/-- The selected array, from any table, index arrays and masks: the table read at the pairs, against zero under the masks. -/
def outOf (b : FVec Ideal S17x17 .f32) (p q : IVec S100x100x100x100x1 32) (mh mw : IVec S100x100 1) :
    FVec Ideal S100x100x100x100 .f32 :=
  select (maskOf mh mw) (Host.gather gather_S17x17_S100x100x100x100x2_S100x100x100x100_n_01_n_n_01_4_11 b (pairsOf p q))
    (broadcastInDim S100x100x100x100 ![] bcast_S_S100x100x100x100 (constant (F := Ideal) S_ .f32 0x00000000#32))

/-- THE SELECTED ARRAY of the reference. -/
def out4 (b : FVec Ideal S17x17 .f32) : FVec Ideal S100x100x100x100 .f32 := outOf b row5 col5 mask2 mask2

/-! ## The stages at an index -/

theorem mask_apply (h1 w1 h2 w2 : Fin 100) :
    maskOf mask2 mask2 (ix4 h1 w1 h2 w2) = IntOp.andi (inband (rel h1.val h2.val)) (inband (rel w1.val w2.val)) := rfl

theorem row_apply (h1 w1 h2 w2 : Fin 100) :
    row5 (ix5 h1 w1 h2 w2 (0 : Fin 1)) = wrap (clip (rel h1.val h2.val)) := rfl

theorem col_apply (h1 w1 h2 w2 : Fin 100) :
    col5 (ix5 h1 w1 h2 w2 (0 : Fin 1)) = wrap (clip (rel w1.val w2.val)) := rfl

/-! ## The table read -/

open Cert.LibGatherPair in
theorem gather_dims : gather_S17x17_S100x100x100x100x2_S100x100x100x100_n_01_n_n_01_4_11 = pairDims 17 17 S100x100x100x100x2 S100x100x100x100 4 gather_S17x17_S100x100x100x100x2_S100x100x100x100_n_01_n_n_01_4_11_wf := rfl

open Cert.LibGatherPair in
theorem si_row (h1 w1 h2 w2 : Fin 100) :
    (pairDims 17 17 S100x100x100x100x2 S100x100x100x100 4 gather_S17x17_S100x100x100x100x2_S100x100x100x100_n_01_n_n_01_4_11_wf).siIdx (ix4 h1 w1 h2 w2) ⟨0, Nat.zero_lt_two⟩
      = ix5 h1 w1 h2 w2 (0 : Fin 2) := by
  funext a; refine Fin.ext ?_
  match a with
  | ⟨0, _⟩ => rfl
  | ⟨1, _⟩ => rfl
  | ⟨2, _⟩ => rfl
  | ⟨3, _⟩ => rfl
  | ⟨4, _⟩ => rfl

open Cert.LibGatherPair in
theorem si_col (h1 w1 h2 w2 : Fin 100) :
    (pairDims 17 17 S100x100x100x100x2 S100x100x100x100 4 gather_S17x17_S100x100x100x100x2_S100x100x100x100_n_01_n_n_01_4_11_wf).siIdx (ix4 h1 w1 h2 w2) ⟨1, Nat.one_lt_two⟩
      = ix5 h1 w1 h2 w2 (1 : Fin 2) := by
  funext a; refine Fin.ext ?_
  match a with
  | ⟨0, _⟩ => rfl
  | ⟨1, _⟩ => rfl
  | ⟨2, _⟩ => rfl
  | ⟨3, _⟩ => rfl
  | ⟨4, _⟩ => rfl

/-- The pair's first component is the wrapped clipped row offset. -/
theorem pairs_row (h1 w1 h2 w2 : Fin 100) :
    pairsOf row5 col5 (ix5 h1 w1 h2 w2 (0 : Fin 2)) = wrap (clip (rel h1.val h2.val)) := by
  unfold pairsOf
  refine (concatenate_pair_apply_left 4 _ _ concatenates_S100x100x100x100x1_S100x100x100x100x1_S100x100x100x100x2_d4 (ix5 h1 w1 h2 w2 (0 : Fin 2)) rfl
    (ix5 h1 w1 h2 w2 (0 : Fin 1)) (fun a => match a with
      | ⟨0, _⟩ => rfl
      | ⟨1, _⟩ => rfl
      | ⟨2, _⟩ => rfl
      | ⟨3, _⟩ => rfl
      | ⟨4, _⟩ => rfl)).trans ?_
  exact row_apply h1 w1 h2 w2

/-- The pair's second component is the wrapped clipped column offset. -/
theorem pairs_col (h1 w1 h2 w2 : Fin 100) :
    pairsOf row5 col5 (ix5 h1 w1 h2 w2 (1 : Fin 2)) = wrap (clip (rel w1.val w2.val)) := by
  unfold pairsOf
  refine (concatenate_pair_apply_right 4 _ _ concatenates_S100x100x100x100x1_S100x100x100x100x1_S100x100x100x100x2_d4 (ix5 h1 w1 h2 w2 (1 : Fin 2)) rfl rfl
    (ix5 h1 w1 h2 w2 (0 : Fin 1)) (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h) rfl).trans ?_
  exact col_apply h1 w1 h2 w2

/-! ## The reference is the specification -/

/-- The array the reference selects is the specification of the bias table. -/
theorem ref_eq (b : FVec Ideal S17x17 .f32) : out4 b = G4 b := by
  funext i
  obtain ⟨h1, w1, h2, w2, rfl⟩ : ∃ (h1 w1 h2 w2 : Fin 100), i = ix4 h1 w1 h2 w2 := ⟨i 0, i 1, i 2, i 3, eq_ix4 i⟩
  show Scalar.select (maskOf mask2 mask2 (ix4 h1 w1 h2 w2))
    (Host.gather gather_S17x17_S100x100x100x100x2_S100x100x100x100_n_01_n_n_01_4_11 b (pairsOf row5 col5) (ix4 h1 w1 h2 w2)) (Ideal.ofBits .f32 0x00000000#32) = _
  rw [mask_apply, Ideal.ofBits_zero_f32, gather_dims,
    Cert.LibGatherPair.gather_pair_apply (by decide) (by decide)]
  simp only [si_row, si_col, pairs_row, pairs_col]
  rw [select_and]
  rfl

end Cert.PosBias.Ref

end
-- ==== Proof.RefEval.lean ====
/-
  The idealized reference's run, read back.

  The run leaves every buffer at the fold of the 79 operations over its launch contents. The fold is read in two
  stretches. The first 68 operations are integer index arithmetic only: after them the two index arrays hold the
  wrapped clipped row and column offsets, the two mask matrices the band mask, and the bias table is untouched. The
  last 11 — the join of the index pairs, the table read, the masks' spread and conjunction, the select against zero
  and the final reshape — are read over ANY contents of those five buffers. Joined, the result buffer holds the
  selected array `out4` of the bias table under two leading unit axes, and `out4` is the specification `G4`.
-/
import proofs.«421970_j23845658427614_3_alg».proof.Proof.RunRef
import proofs.«421970_j23845658427614_3_alg».proof.Proof.RefValue
import Idealize.ShloMosaic.Lib.StableHlo.Run
import Idealize.ShloMosaic.Lib.Pipeline.Frame

set_option maxRecDepth 16384

noncomputable section

namespace Cert.PosBias.Ref

open Idealize.ShloMosaic Idealize.ShloMosaic.TcCoe Idealize.SL.Sem Idealize.ShloMosaic.StableHlo
open Cert.ReferenceIdeal Cert.ReferenceIdeal.ValueP Cert.PosBias

/-! ## The first stretch: the index arithmetic -/

section First
variable (V : Valuation τ sig (Elt Ideal))

set_option maxHeartbeats 8000000 in
/-- The row indices after the first stretch. -/
theorem A_row : after (opsA (F := Ideal)) V (Proc.devRef .tc main_v42) = row5 := by
  after_results_simp <;> (try simp only [TRef.ofBuf, TRef.toBuf, cast_eq]) <;> rfl

set_option maxHeartbeats 8000000 in
/-- The column indices. -/
theorem A_col : after (opsA (F := Ideal)) V (Proc.devRef .tc main_v43) = col5 := by
  after_results_simp <;> (try simp only [TRef.ofBuf, TRef.toBuf, cast_eq]) <;> rfl

set_option maxHeartbeats 8000000 in
/-- The row offsets' band mask. -/
theorem A_maskH : after (opsA (F := Ideal)) V (Proc.devRef .tc main_v20) = mask2 := by
  after_results_simp <;> (try simp only [TRef.ofBuf, TRef.toBuf, cast_eq]) <;> rfl

set_option maxHeartbeats 8000000 in
/-- The column offsets' band mask. -/
theorem A_maskW : after (opsA (F := Ideal)) V (Proc.devRef .tc main_v25) = mask2 := by
  after_results_simp <;> (try simp only [TRef.ofBuf, TRef.toBuf, cast_eq]) <;> rfl

set_option maxHeartbeats 8000000 in
/-- No operation of the stretch writes the first argument. -/
theorem A_arg0 : after (opsA (F := Ideal)) V (Proc.devRef .tc main_arg0) = V (Proc.devRef .tc main_arg0) := by
  after_results_simp <;> (try simp only [TRef.ofBuf, TRef.toBuf, cast_eq]) <;> rfl

set_option maxHeartbeats 8000000 in
/-- Nor the bias table. -/
theorem A_arg1 : after (opsA (F := Ideal)) V (Proc.devRef .tc main_arg1) = V (Proc.devRef .tc main_arg1) := by
  after_results_simp <;> (try simp only [TRef.ofBuf, TRef.toBuf, cast_eq]) <;> rfl

end First

/-! ## The second stretch: the table read and the select -/

section Second
variable (W : Valuation τ sig (Elt Ideal))

set_option maxHeartbeats 8000000 in
/-- The result after the second stretch, over any contents of the five buffers it reads. -/
theorem B_out : after (opsB (F := Ideal)) W (Proc.devRef .tc main_v52)
    = shapeCast S1x1x100x100x100x100
        (outOf (W (Proc.devRef .tc main_arg1)) (W (Proc.devRef .tc main_v42)) (W (Proc.devRef .tc main_v43))
          (W (Proc.devRef .tc main_v20)) (W (Proc.devRef .tc main_v25)))
        Facts₀.shapeCasts_S100x100x100x100_S1x1x100x100x100x100 := by
  after_results
  rfl

set_option maxHeartbeats 8000000 in
theorem B_arg0 : after (opsB (F := Ideal)) W (Proc.devRef .tc main_arg0) = W (Proc.devRef .tc main_arg0) := by
  after_results_simp <;> (try simp only [TRef.ofBuf, TRef.toBuf, cast_eq]) <;> rfl

set_option maxHeartbeats 8000000 in
theorem B_arg1 : after (opsB (F := Ideal)) W (Proc.devRef .tc main_arg1) = W (Proc.devRef .tc main_arg1) := by
  after_results_simp <;> (try simp only [TRef.ofBuf, TRef.toBuf, cast_eq]) <;> rfl

end Second

/-! ## The run -/

variable (m : (ℓ : Loc nD τ sig) → Buf (Elt Ideal) ℓ) (ρ : Dev nD → PrngReg)

/-- The fold at the result: the specification of the bias table as launched, under two leading unit axes. -/
theorem res_v52 (d : Dev nD) :
    after (ops (F := Ideal)) (launchContents m d) (Proc.devRef .tc main_v52)
      = shapeCast S1x1x100x100x100x100 (G4 (m ((d.tc : Thread nD τ).loc main_arg1)))
          Facts₀.shapeCasts_S100x100x100x100_S1x1x100x100x100x100 := by
  rw [ops_eq, StableHlo.after_append, B_out, A_row, A_col, A_maskH, A_maskW, A_arg1]
  show shapeCast S1x1x100x100x100x100 (out4 (m ((d.tc : Thread nD τ).loc main_arg1)))
    Facts₀.shapeCasts_S100x100x100x100_S1x1x100x100x100x100 = _
  rw [ref_eq]

theorem kept_arg0 (d : Dev nD) :
    after (ops (F := Ideal)) (launchContents m d) (Proc.devRef .tc main_arg0) = m ((d.tc : Thread nD τ).loc main_arg0) := by
  rw [ops_eq, StableHlo.after_append, B_arg0, A_arg0]

theorem kept_arg1 (d : Dev nD) :
    after (ops (F := Ideal)) (launchContents m d) (Proc.devRef .tc main_arg1) = m ((d.tc : Thread nD τ).loc main_arg1) := by
  rw [ops_eq, StableHlo.after_append, B_arg1, A_arg1]

/-- Every weakly fair execution of the idealized reference's @main terminates with the result at the specification of
    the bias table as launched, and the arguments unchanged. -/
theorem run : θ_run defs (onTc (τ := τ) (main (F := Ideal))) ⟨m, fun _ => 0, ρ⟩ fun r => ∀ c : Dev nD,
      r.2.mem ((c.tc : Thread nD τ).loc main_v52)
        = shapeCast S1x1x100x100x100x100 (G4 (m ((c.tc : Thread nD τ).loc main_arg1)))
            Facts₀.shapeCasts_S100x100x100x100_S1x1x100x100x100x100
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c main_v52).trans (res_v52 m c), (h c main_arg0).trans (kept_arg0 m c), (h c main_arg1).trans (kept_arg1 m c)⟩)
    (run_fold m ρ)

end Cert.PosBias.Ref

end
-- ==== Proof.lean ====
/-
  A relative-position bias table spread over all pairs of positions of a 100 × 100 grid: the certificate.

  Both programs take a 17 × 17 table `b` of biases (radius 8) and return, for every pair of grid positions
  `(h1, w1)`, `(h2, w2)`, the bias `b[h2 − h1 + 8, w2 − w1 + 8]` when both offsets lie within the radius and `0` otherwise
  (the first argument gives only its shape). The reference reads the table at the clipped offsets and masks the
  read. The kernel reads it one axis at a time: the host prepares the column read `T[w1, k, w2] = b[k, w2 − w1 + 8]`
  (masked), and at grid point `h1` the body multiplies `T` by the one-hot matrix `[h2 − h1 + 8 = k]` and sums over the
  seventeen rows `k`, which picks row `h2 − h1 + 8` when that offset is within the radius and nothing otherwise.

  The one law that joins them is the one-hot sum (`Cert.PosBias.onehot_sum`): it uses `0 · x = 0`, `1 · x = x` and
  `x + 0 = x` only, which hold on all extended reals, so the precondition is never opened. The integer offsets are the
  same 32-bit words in both programs and are compared as words.

  Frames: the two kernel programs' from the launch-and-body certificates of the region; the reference's from its run.
  The idealization rewrote no operation, so `preserves` states nothing.
-/
import proofs.«421970_j23845658427614_3_alg».proof.Defs
import proofs.«421970_j23845658427614_3_alg».proof.Proof.Gen.Kernel
import proofs.«421970_j23845658427614_3_alg».proof.Proof.Gen.Kernel.Skeleton
import proofs.«421970_j23845658427614_3_alg».proof.Proof.Gen.Kernel.Launch
import proofs.«421970_j23845658427614_3_alg».proof.Proof.Gen.Kernel.Points
import proofs.«421970_j23845658427614_3_alg».proof.Proof.FrameKernel
import proofs.«421970_j23845658427614_3_alg».proof.Proof.Gen.KernelIdeal
import proofs.«421970_j23845658427614_3_alg».proof.Proof.Gen.KernelIdeal.Skeleton
import proofs.«421970_j23845658427614_3_alg».proof.Proof.Gen.KernelIdeal.Launch
import proofs.«421970_j23845658427614_3_alg».proof.Proof.Gen.KernelIdeal.Points
import proofs.«421970_j23845658427614_3_alg».proof.Proof.FrameKernelIdeal
import proofs.«421970_j23845658427614_3_alg».proof.Proof.Gen.ReferenceIdeal
import proofs.«421970_j23845658427614_3_alg».proof.Proof.RunRef
import proofs.«421970_j23845658427614_3_alg».proof.Proof.Gen.Pre_finite_inputs
import proofs.«421970_j23845658427614_3_alg».proof.Proof.KernelValue
import proofs.«421970_j23845658427614_3_alg».proof.Proof.RefValue
import proofs.«421970_j23845658427614_3_alg».proof.Proof.RefEval
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no region: its frame is its run with the result dropped. -/
theorem frame_referenceIdeal : Cert.frame_ReferenceIdeal := fun m ρ _ =>
  (θ_run Cert.ReferenceIdeal.defs _ _).mono (fun _ h c => (h c).2) (Cert.PosBias.Ref.run m ρ)

theorem preserves : Cert.preserves_Kernel_KernelIdeal := trivial

/-- From memories that agree on the bias table both runs end at the specification `G4` of that table, under the same
    two leading unit axes. -/
theorem algebraic : Cert.algebraic_KernelIdeal_ReferenceIdeal := by
  intro m ρ m' ρ' _ hagree
  refine ⟨fun c => shapeCast Cert.KernelIdeal.S1x1x100x100x100x100
      (Cert.PosBias.G4 (m ((c.tc : Thread Cert.KernelIdeal.nD Cert.KernelIdeal.τ).loc Cert.KernelIdeal.main_arg1)))
      Cert.KernelIdeal.Facts₀.shapeCasts_S100x100x100x100_S1x1x100x100x100x100,
    Cert.PosBias.Kernel.run m ρ, ?_⟩
  refine (θ_run Cert.ReferenceIdeal.defs _ _).mono (fun _ h c => ⟨(h c).1.trans ?_, (h c).2⟩)
    (Cert.PosBias.Ref.run m' ρ')
  rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
